-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2 : Shape := ⟨2, ![16384, 2]⟩
abbrev S100000x50 : Shape := ⟨2, ![100000, 50]⟩
abbrev S100000x64 : Shape := ⟨2, ![100000, 64]⟩
abbrev S20000x64 : Shape := ⟨2, ![20000, 64]⟩
abbrev S100000 : Shape := ⟨1, ![100000]⟩
abbrev S20000 : Shape := ⟨1, ![20000]⟩
abbrev S_ : Shape := ⟨0, ![]⟩
abbrev S16384x1 : Shape := ⟨2, ![16384, 1]⟩
abbrev S16384 : Shape := ⟨1, ![16384]⟩

class Facts : Prop where
  slices_S16384x2_S16384x1_0_0 : S16384x2.Slices ![0, 0] S16384x1
  shapeCasts_S16384x1_S16384 : S16384x1.ShapeCasts S16384
  slices_S16384x2_S16384x1_0_1 : S16384x2.Slices ![0, 1] S16384x1
  bcast_S_S100000x64 : S_.BroadcastsInDim S100000x64 (![] : Fin 0 → Fin S100000x64.rank)
  reducesTo_S100000x64_S_d0_1 : S100000x64.ReducesTo [0, 1] S_
  h_S_ : 0 < S_.numel
  bcast_S_S20000x64 : S_.BroadcastsInDim S20000x64 (![] : Fin 0 → Fin S20000x64.rank)
  reducesTo_S20000x64_S_d0_1 : S20000x64.ReducesTo [0, 1] S_
  bcast_S_S100000 : S_.BroadcastsInDim S100000 (![] : Fin 0 → Fin S100000.rank)
  reducesTo_S100000_S_d0 : S100000.ReducesTo [0] S_
  bcast_S_S20000 : S_.BroadcastsInDim S20000 (![] : Fin 0 → Fin S20000.rank)
  reducesTo_S20000_S_d0 : S20000.ReducesTo [0] S_
  reducesTo_S_S_d : S_.ReducesTo [] S_
  bcast_S_S16384 : S_.BroadcastsInDim S16384 (![] : Fin 0 → Fin S16384.rank)
  reducesTo_S16384_S_d0 : S16384.ReducesTo [0] S_
  bcast_S_S100000x50 : S_.BroadcastsInDim S100000x50 (![] : Fin 0 → Fin S100000x50.rank)
  reducesTo_S100000x50_S_d0_1 : S100000x50.ReducesTo [0, 1] S_

variable [Facts]

def fn_part3 {F : FTy → Type} [FloatOps F] (main_arg1 : IVec S100000x50 32) (main_v50 : IVec S_ 1) (main_c_18 : IVec S_ 32) : IVec S_ 1 :=
  let main_v51 : IVec S100000x50 32 := broadcastInDim S100000x50 ![] bcast_S_S100000x50 main_c_18
  let main_v52 : IVec S100000x50 1 := cmpi .sge main_arg1 main_v51
  let main_c_19 : IVec S_ 32 := constantI S_ 32 20000#32
  let main_v53 : IVec S100000x50 32 := broadcastInDim S100000x50 ![] bcast_S_S100000x50 main_c_19
  let main_v54 : IVec S100000x50 1 := cmpi .slt main_arg1 main_v53
  let main_v55 : IVec S100000x50 1 := andi main_v52 main_v54
  let main_c_20 : IVec S_ 1 := constantI S_ 1 1#1
  let main_v56 : IVec S_ 1 := (fun x v => Host.reduce IntOp.andi x v reducesTo_S100000x50_S_d0_1 h_S_) main_v55 main_c_20
  let main_v57 : IVec S_ 1 := andi main_v50 main_v56
  main_v57

def fn_part2 {F : FTy → Type} [FloatOps F] (main_arg1 : IVec S100000x50 32) (main_v1 : IVec S16384 32) (main_v3 : IVec S16384 32) (main_v32 : IVec S_ 1) (main_v34 : IVec S_ 1) : IVec S_ 1 :=
  let main_c_11 : IVec S_ 1 := constantI S_ 1 1#1
  let main_v35 : IVec S_ 1 := (fun x v => Host.reduce IntOp.andi x v reducesTo_S_S_d h_S_) main_v34 main_c_11
  let main_v36 : IVec S_ 1 := andi main_v32 main_v35
  let main_c_12 : IVec S_ 32 := constantI S_ 32 0#32
  let main_v37 : IVec S16384 32 := broadcastInDim S16384 ![] bcast_S_S16384 main_c_12
  let main_v38 : IVec S16384 1 := cmpi .sge main_v1 main_v37
  let main_c_13 : IVec S_ 32 := constantI S_ 32 100000#32
  let main_v39 : IVec S16384 32 := broadcastInDim S16384 ![] bcast_S_S16384 main_c_13
  let main_v40 : IVec S16384 1 := cmpi .slt main_v1 main_v39
  let main_v41 : IVec S16384 1 := andi main_v38 main_v40
  let main_c_14 : IVec S_ 1 := constantI S_ 1 1#1
  let main_v42 : IVec S_ 1 := (fun x v => Host.reduce IntOp.andi x v reducesTo_S16384_S_d0 h_S_) main_v41 main_c_14
  let main_v43 : IVec S_ 1 := andi main_v36 main_v42
  let main_c_15 : IVec S_ 32 := constantI S_ 32 0#32
  let main_v44 : IVec S16384 32 := broadcastInDim S16384 ![] bcast_S_S16384 main_c_15
  let main_v45 : IVec S16384 1 := cmpi .sge main_v3 main_v44
  let main_c_16 : IVec S_ 32 := constantI S_ 32 20000#32
  let main_v46 : IVec S16384 32 := broadcastInDim S16384 ![] bcast_S_S16384 main_c_16
  let main_v47 : IVec S16384 1 := cmpi .slt main_v3 main_v46
  let main_v48 : IVec S16384 1 := andi main_v45 main_v47
  let main_c_17 : IVec S_ 1 := constantI S_ 1 1#1
  let main_v49 : IVec S_ 1 := (fun x v => Host.reduce IntOp.andi x v reducesTo_S16384_S_d0 h_S_) main_v48 main_c_17
  let main_v50 : IVec S_ 1 := andi main_v43 main_v49
  let main_c_18 : IVec S_ 32 := constantI S_ 32 0#32
  fn_part3 (F := F) main_arg1 main_v50 main_c_18

def fn_part1 {F : FTy → Type} [FloatOps F] (main_arg1 : IVec S100000x50 32) (main_arg5 : FVec F S20000 .f32) (main_arg6 : FVec F S20000x64 .f32) (main_arg7 : FVec F S100000 .f32) (main_arg8 : FVec F S_ .f32) (main_v1 : IVec S16384 32) (main_v3 : IVec S16384 32) (main_v17 : IVec S_ 1) : IVec S_ 1 :=
  let main_v18 : FVec F S20000 .f32 := Host.absf main_arg5
  let main_cst_4 : FVec F S_ .f32 := constant S_ .f32 0x7F800000#32
  let main_v19 : FVec F S20000 .f32 := broadcastInDim S20000 ![] bcast_S_S20000 main_cst_4
  let main_v20 : IVec S20000 1 := cmpf .olt main_v18 main_v19
  let main_c_5 : IVec S_ 1 := constantI S_ 1 1#1
  let main_v21 : IVec S_ 1 := (fun x v => Host.reduce IntOp.andi x v reducesTo_S20000_S_d0 h_S_) main_v20 main_c_5
  let main_v22 : IVec S_ 1 := andi main_v17 main_v21
  let main_v23 : FVec F S20000x64 .f32 := Host.absf main_arg6
  let main_cst_6 : FVec F S_ .f32 := constant S_ .f32 0x7F800000#32
  let main_v24 : FVec F S20000x64 .f32 := broadcastInDim S20000x64 ![] bcast_S_S20000x64 main_cst_6
  let main_v25 : IVec S20000x64 1 := cmpf .olt main_v23 main_v24
  let main_c_7 : IVec S_ 1 := constantI S_ 1 1#1
  let main_v26 : IVec S_ 1 := (fun x v => Host.reduce IntOp.andi x v reducesTo_S20000x64_S_d0_1 h_S_) main_v25 main_c_7
  let main_v27 : IVec S_ 1 := andi main_v22 main_v26
  let main_v28 : FVec F S100000 .f32 := Host.absf main_arg7
  let main_cst_8 : FVec F S_ .f32 := constant S_ .f32 0x7F800000#32
  let main_v29 : FVec F S100000 .f32 := broadcastInDim S100000 ![] bcast_S_S100000 main_cst_8
  let main_v30 : IVec S100000 1 := cmpf .olt main_v28 main_v29
  let main_c_9 : IVec S_ 1 := constantI S_ 1 1#1
  let main_v31 : IVec S_ 1 := (fun x v => Host.reduce IntOp.andi x v reducesTo_S100000_S_d0 h_S_) main_v30 main_c_9
  let main_v32 : IVec S_ 1 := andi main_v27 main_v31
  let main_v33 : FVec F S_ .f32 := Host.absf main_arg8
  let main_cst_10 : FVec F S_ .f32 := constant S_ .f32 0x7F800000#32
  let main_v34 : IVec S_ 1 := cmpf .olt main_v33 main_cst_10
  fn_part2 (F := F) main_arg1 main_v1 main_v3 main_v32 main_v34

def fn {F : FTy → Type} [FloatOps F] (main_arg0 : IVec S16384x2 32) (main_arg1 : IVec S100000x50 32) (main_arg2 : FVec F S100000x64 .f32) (main_arg3 : FVec F S20000x64 .f32) (main_arg4 : FVec F S100000 .f32) (main_arg5 : FVec F S20000 .f32) (main_arg6 : FVec F S20000x64 .f32) (main_arg7 : FVec F S100000 .f32) (main_arg8 : FVec F S_ .f32) : IVec S_ 1 :=
  let main_v0 : IVec S16384x1 32 := (extractStridedSlice S16384x1 ![0, 0] · slices_S16384x2_S16384x1_0_0) main_arg0
  let main_v1 : IVec S16384 32 := shapeCast S16384 main_v0 shapeCasts_S16384x1_S16384
  let main_v2 : IVec S16384x1 32 := (extractStridedSlice S16384x1 ![0, 1] · slices_S16384x2_S16384x1_0_1) main_arg0
  let main_v3 : IVec S16384 32 := shapeCast S16384 main_v2 shapeCasts_S16384x1_S16384
  let main_v4 : FVec F S100000x64 .f32 := Host.absf main_arg2
  let main_cst : FVec F S_ .f32 := constant S_ .f32 0x7F800000#32
  let main_v5 : FVec F S100000x64 .f32 := broadcastInDim S100000x64 ![] bcast_S_S100000x64 main_cst
  let main_v6 : IVec S100000x64 1 := cmpf .olt main_v4 main_v5
  let main_c : IVec S_ 1 := constantI S_ 1 1#1
  let main_v7 : IVec S_ 1 := (fun x v => Host.reduce IntOp.andi x v reducesTo_S100000x64_S_d0_1 h_S_) main_v6 main_c
  let main_v8 : FVec F S20000x64 .f32 := Host.absf main_arg3
  let main_cst_0 : FVec F S_ .f32 := constant S_ .f32 0x7F800000#32
  let main_v9 : FVec F S20000x64 .f32 := broadcastInDim S20000x64 ![] bcast_S_S20000x64 main_cst_0
  let main_v10 : IVec S20000x64 1 := cmpf .olt main_v8 main_v9
  let main_c_1 : IVec S_ 1 := constantI S_ 1 1#1
  let main_v11 : IVec S_ 1 := (fun x v => Host.reduce IntOp.andi x v reducesTo_S20000x64_S_d0_1 h_S_) main_v10 main_c_1
  let main_v12 : IVec S_ 1 := andi main_v7 main_v11
  let main_v13 : FVec F S100000 .f32 := Host.absf main_arg4
  let main_cst_2 : FVec F S_ .f32 := constant S_ .f32 0x7F800000#32
  let main_v14 : FVec F S100000 .f32 := broadcastInDim S100000 ![] bcast_S_S100000 main_cst_2
  let main_v15 : IVec S100000 1 := cmpf .olt main_v13 main_v14
  let main_c_3 : IVec S_ 1 := constantI S_ 1 1#1
  let main_v16 : IVec S_ 1 := (fun x v => Host.reduce IntOp.andi x v reducesTo_S100000_S_d0 h_S_) main_v15 main_c_3
  let main_v17 : IVec S_ 1 := andi main_v12 main_v16
  fn_part1 (F := F) main_arg1 main_arg5 main_arg6 main_arg7 main_arg8 main_v1 main_v3 main_v17
-- ==== Kernel.lean ====
abbrev S16384x2 : Shape := ⟨2, ![16384, 2]⟩
abbrev S100000x50 : Shape := ⟨2, ![100000, 50]⟩
abbrev S100000x64 : Shape := ⟨2, ![100000, 64]⟩
abbrev S20000x64 : Shape := ⟨2, ![20000, 64]⟩
abbrev S100000 : Shape := ⟨1, ![100000]⟩
abbrev S20000 : Shape := ⟨1, ![20000]⟩
abbrev S_ : Shape := ⟨0, ![]⟩
abbrev S16384x1 : Shape := ⟨2, ![16384, 1]⟩
abbrev S16384 : Shape := ⟨1, ![16384]⟩
abbrev S1 : Shape := ⟨1, ![1]⟩
abbrev S1x1 : Shape := ⟨2, ![1, 1]⟩
abbrev S16384x64 : Shape := ⟨2, ![16384, 64]⟩
abbrev S16384x50 : Shape := ⟨2, ![16384, 50]⟩
abbrev S16384x50x1 : Shape := ⟨3, ![16384, 50, 1]⟩
abbrev S1x1x1 : Shape := ⟨3, ![1, 1, 1]⟩
abbrev S16384x50x64 : Shape := ⟨3, ![16384, 50, 64]⟩
abbrev S2048x64 : Shape := ⟨2, ![2048, 64]⟩
abbrev S2048x2 : Shape := ⟨2, ![2048, 2]⟩
abbrev S2048x1 : Shape := ⟨2, ![2048, 1]⟩
abbrev S2048 : Shape := ⟨1, ![2048]⟩

abbrev nBuf : Space → Nat
  | .hbm => 181
  | .vmem => 10
  | .smem => 0
  | _ => 0

abbrev hbmTy0_0 (i : Nat) : BufTy := match i % 128 with
  | 0 => ⟨S16384x2, .i32⟩
  | 1 => ⟨S100000x50, .i32⟩
  | 2 => ⟨S100000x64, .f32⟩
  | 3 => ⟨S20000x64, .f32⟩
  | 4 => ⟨S100000, .f32⟩
  | 5 => ⟨S20000, .f32⟩
  | 6 => ⟨S20000x64, .f32⟩
  | 7 => ⟨S100000, .f32⟩
  | 8 => ⟨S_, .f32⟩
  | 9 => ⟨S16384x1, .i32⟩
  | 10 => ⟨S16384, .i32⟩
  | 11 => ⟨S16384x1, .i32⟩
  | 12 => ⟨S16384, .i32⟩
  | 13 => ⟨S_, .i32⟩
  | 14 => ⟨S16384, .i32⟩
  | 15 => ⟨S16384, .i1⟩
  | 16 => ⟨S_, .i32⟩
  | 17 => ⟨S16384, .i32⟩
  | 18 => ⟨S16384, .i32⟩
  | 19 => ⟨S16384, .i32⟩
  | 20 => ⟨S16384x1, .i32⟩
  | 21 => ⟨S1, .i32⟩
  | 22 => ⟨S_, .i32⟩
  | 23 => ⟨S16384x1, .i32⟩
  | 24 => ⟨S16384x1, .i1⟩
  | 25 => ⟨S1x1, .i32⟩
  | 26 => ⟨S16384x1, .i32⟩
  | 27 => ⟨S16384x1, .i1⟩
  | 28 => ⟨S16384x1, .i1⟩
  | 29 => ⟨S_, .i1⟩
  | 30 => ⟨S16384, .i1⟩
  | 31 => ⟨S16384x64, .f32⟩
  | 32 => ⟨S16384x64, .i1⟩
  | 33 => ⟨S_, .f32⟩
  | 34 => ⟨S16384x64, .f32⟩
  | 35 => ⟨S16384x64, .f32⟩
  | 36 => ⟨S_, .i32⟩
  | 37 => ⟨S16384, .i32⟩
  | 38 => ⟨S16384, .i1⟩
  | 39 => ⟨S_, .i32⟩
  | 40 => ⟨S16384, .i32⟩
  | 41 => ⟨S16384, .i32⟩
  | 42 => ⟨S16384, .i32⟩
  | 43 => ⟨S16384x1, .i32⟩
  | 44 => ⟨S1, .i32⟩
  | 45 => ⟨S_, .i32⟩
  | 46 => ⟨S16384x1, .i32⟩
  | 47 => ⟨S16384x1, .i1⟩
  | 48 => ⟨S1x1, .i32⟩
  | 49 => ⟨S16384x1, .i32⟩
  | 50 => ⟨S16384x1, .i1⟩
  | 51 => ⟨S16384x1, .i1⟩
  | 52 => ⟨S_, .i1⟩
  | 53 => ⟨S16384, .i1⟩
  | 54 => ⟨S16384x64, .f32⟩
  | 55 => ⟨S16384x64, .i1⟩
  | 56 => ⟨S_, .f32⟩
  | 57 => ⟨S16384x64, .f32⟩
  | 58 => ⟨S16384x64, .f32⟩
  | 59 => ⟨S_, .i32⟩
  | 60 => ⟨S16384, .i32⟩
  | 61 => ⟨S16384, .i1⟩
  | 62 => ⟨S_, .i32⟩
  | 63 => ⟨S16384, .i32⟩
  | 64 => ⟨S16384, .i32⟩
  | 65 => ⟨S16384, .i32⟩
  | 66 => ⟨S16384x1, .i32⟩
  | 67 => ⟨S1, .i32⟩
  | 68 => ⟨S_, .i32⟩
  | 69 => ⟨S16384x1, .i32⟩
  | 70 => ⟨S16384x1, .i1⟩
  | 71 => ⟨S1x1, .i32⟩
  | 72 => ⟨S16384x1, .i32⟩
  | 73 => ⟨S16384x1, .i1⟩
  | 74 => ⟨S16384x1, .i1⟩
  | 75 => ⟨S_, .i1⟩
  | 76 => ⟨S16384, .i1⟩
  | 77 => ⟨S16384, .f32⟩
  | 78 => ⟨S_, .f32⟩
  | 79 => ⟨S16384, .f32⟩
  | 80 => ⟨S16384, .f32⟩
  | 81 => ⟨S_, .i32⟩
  | 82 => ⟨S16384, .i32⟩
  | 83 => ⟨S16384, .i1⟩
  | 84 => ⟨S_, .i32⟩
  | 85 => ⟨S16384, .i32⟩
  | 86 => ⟨S16384, .i32⟩
  | 87 => ⟨S16384, .i32⟩
  | 88 => ⟨S16384x1, .i32⟩
  | 89 => ⟨S1, .i32⟩
  | 90 => ⟨S_, .i32⟩
  | 91 => ⟨S16384x1, .i32⟩
  | 92 => ⟨S16384x1, .i1⟩
  | 93 => ⟨S1x1, .i32⟩
  | 94 => ⟨S16384x1, .i32⟩
  | 95 => ⟨S16384x1, .i1⟩
  | 96 => ⟨S16384x1, .i1⟩
  | 97 => ⟨S_, .i1⟩
  | 98 => ⟨S16384, .i1⟩
  | 99 => ⟨S16384, .f32⟩
  | 100 => ⟨S_, .f32⟩
  | 101 => ⟨S16384, .f32⟩
  | 102 => ⟨S16384, .f32⟩
  | 103 => ⟨S_, .i32⟩
  | 104 => ⟨S16384, .i32⟩
  | 105 => ⟨S16384, .i1⟩
  | 106 => ⟨S_, .i32⟩
  | 107 => ⟨S16384, .i32⟩
  | 108 => ⟨S16384, .i32⟩
  | 109 => ⟨S16384, .i32⟩
  | 110 => ⟨S16384x1, .i32⟩
  | 111 => ⟨S1, .i32⟩
  | 112 => ⟨S_, .i32⟩
  | 113 => ⟨S16384x1, .i32⟩
  | 114 => ⟨S16384x1, .i1⟩
  | 115 => ⟨S1x1, .i32⟩
  | 116 => ⟨S16384x1, .i32⟩
  | 117 => ⟨S16384x1, .i1⟩
  | 118 => ⟨S16384x1, .i1⟩
  | 119 => ⟨S_, .i1⟩
  | 120 => ⟨S16384, .i1⟩
  | 121 => ⟨S16384, .f32⟩
  | 122 => ⟨S_, .f32⟩
  | 123 => ⟨S16384, .f32⟩
  | 124 => ⟨S16384, .f32⟩
  | 125 => ⟨S16384, .f32⟩
  | 126 => ⟨S16384x1, .f32⟩
  | 127 => ⟨S16384x1, .f32⟩
  | _ => ⟨S16384x2, .i32⟩

abbrev hbmTy0_1 (i : Nat) : BufTy := match i % 128 with
  | 0 => ⟨S16384x2, .f32⟩
  | 1 => ⟨S_, .i32⟩
  | 2 => ⟨S16384, .i32⟩
  | 3 => ⟨S16384, .i1⟩
  | 4 => ⟨S_, .i32⟩
  | 5 => ⟨S16384, .i32⟩
  | 6 => ⟨S16384, .i32⟩
  | 7 => ⟨S16384, .i32⟩
  | 8 => ⟨S16384x1, .i32⟩
  | 9 => ⟨S1, .i32⟩
  | 10 => ⟨S_, .i32⟩
  | 11 => ⟨S16384x1, .i32⟩
  | 12 => ⟨S16384x1, .i1⟩
  | 13 => ⟨S1x1, .i32⟩
  | 14 => ⟨S16384x1, .i32⟩
  | 15 => ⟨S16384x1, .i1⟩
  | 16 => ⟨S16384x1, .i1⟩
  | 17 => ⟨S_, .i1⟩
  | 18 => ⟨S16384, .i1⟩
  | 19 => ⟨S16384x50, .i32⟩
  | 20 => ⟨S16384x50, .i1⟩
  | 21 => ⟨S_, .i32⟩
  | 22 => ⟨S16384x50, .i32⟩
  | 23 => ⟨S16384x50, .i32⟩
  | 24 => ⟨S_, .i32⟩
  | 25 => ⟨S16384x50, .i32⟩
  | 26 => ⟨S16384x50, .i1⟩
  | 27 => ⟨S_, .i32⟩
  | 28 => ⟨S16384x50, .i32⟩
  | 29 => ⟨S16384x50, .i32⟩
  | 30 => ⟨S16384x50, .i32⟩
  | 31 => ⟨S16384x50x1, .i32⟩
  | 32 => ⟨S1, .i32⟩
  | 33 => ⟨S_, .i32⟩
  | 34 => ⟨S16384x50x1, .i32⟩
  | 35 => ⟨S16384x50x1, .i1⟩
  | 36 => ⟨S1x1x1, .i32⟩
  | 37 => ⟨S16384x50x1, .i32⟩
  | 38 => ⟨S16384x50x1, .i1⟩
  | 39 => ⟨S16384x50x1, .i1⟩
  | 40 => ⟨S_, .i1⟩
  | 41 => ⟨S16384x50, .i1⟩
  | 42 => ⟨S16384x50x64, .f32⟩
  | 43 => ⟨S16384x50x64, .i1⟩
  | 44 => ⟨S_, .f32⟩
  | 45 => ⟨S16384x50x64, .f32⟩
  | 46 => ⟨S16384x50x64, .f32⟩
  | 47 => ⟨S_, .f32⟩
  | 48 => ⟨S16384x64, .f32⟩
  | 49 => ⟨S16384x1, .f32⟩
  | 50 => ⟨S16384, .f32⟩
  | 51 => ⟨S16384, .f32⟩
  | 52 => ⟨S16384, .f32⟩
  | _ => ⟨S16384x2, .i32⟩

abbrev hbmTy (i : Nat) : BufTy := match i / 128 with
  | 0 => hbmTy0_0 i
  | 1 => hbmTy0_1 i
  | _ => ⟨S16384x2, .i32⟩

abbrev bufTy : (tb : Table) → Fin (tcTables nBuf tb) → BufTy
  | .hbm, ⟨i, _⟩ => hbmTy i
  | .local _ .vmem, ⟨0, _⟩ => ⟨S2048x64, .f32⟩
  | .local _ .vmem, ⟨1, _⟩ => ⟨S2048x64, .f32⟩
  | .local _ .vmem, ⟨2, _⟩ => ⟨S2048x64, .f32⟩
  | .local _ .vmem, ⟨3, _⟩ => ⟨S2048x64, .f32⟩
  | .local _ .vmem, ⟨4, _⟩ => ⟨S2048x2, .f32⟩
  | .local _ .vmem, ⟨5, _⟩ => ⟨S2048x2, .f32⟩
  | .local _ .vmem, ⟨6, _⟩ => ⟨S2048x64, .f32⟩
  | .local _ .vmem, ⟨7, _⟩ => ⟨S2048x64, .f32⟩
  | .local _ .vmem, ⟨8, _⟩ => ⟨S2048x1, .f32⟩
  | .local _ .vmem, ⟨9, _⟩ => ⟨S2048x1, .f32⟩
  | _, _ => ⟨S16384x2, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_cst : Ref sig .tc := ⟨.hbm, 33, rfl⟩
abbrev main_call0_v15 : Ref sig .tc := ⟨.hbm, 34, rfl⟩
abbrev main_v4 : Ref sig .tc := ⟨.hbm, 35, rfl⟩
abbrev main_call1_c : Ref sig .tc := ⟨.hbm, 36, rfl⟩
abbrev main_call1_v0 : Ref sig .tc := ⟨.hbm, 37, rfl⟩
abbrev main_call1_v1 : Ref sig .tc := ⟨.hbm, 38, rfl⟩
abbrev main_call1_c_0 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_c_1 : Ref sig .tc := ⟨.hbm, 44, rfl⟩
abbrev main_call1_c_2 : Ref sig .tc := ⟨.hbm, 45, rfl⟩
abbrev main_call1_v6 : Ref sig .tc := ⟨.hbm, 46, rfl⟩
abbrev main_call1_v7 : Ref sig .tc := ⟨.hbm, 47, rfl⟩
abbrev main_call1_v8 : Ref sig .tc := ⟨.hbm, 48, rfl⟩
abbrev main_call1_v9 : Ref sig .tc := ⟨.hbm, 49, rfl⟩
abbrev main_call1_v10 : Ref sig .tc := ⟨.hbm, 50, rfl⟩
abbrev main_call1_v11 : Ref sig .tc := ⟨.hbm, 51, rfl⟩
abbrev main_call1_c_3 : Ref sig .tc := ⟨.hbm, 52, rfl⟩
abbrev main_call1_v12 : Ref sig .tc := ⟨.hbm, 53, rfl⟩
abbrev main_call1_v13 : Ref sig .tc := ⟨.hbm, 54, rfl⟩
abbrev main_call1_v14 : Ref sig .tc := ⟨.hbm, 55, rfl⟩
abbrev main_call1_cst : Ref sig .tc := ⟨.hbm, 56, rfl⟩
abbrev main_call1_v15 : Ref sig .tc := ⟨.hbm, 57, rfl⟩
abbrev main_v5 : Ref sig .tc := ⟨.hbm, 58, rfl⟩
abbrev main_call2_c : Ref sig .tc := ⟨.hbm, 59, rfl⟩
abbrev main_call2_v0 : Ref sig .tc := ⟨.hbm, 60, rfl⟩
abbrev main_call2_v1 : Ref sig .tc := ⟨.hbm, 61, rfl⟩
abbrev main_call2_c_0 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_v5 : Ref sig .tc := ⟨.hbm, 66, rfl⟩
abbrev main_call2_c_1 : Ref sig .tc := ⟨.hbm, 67, rfl⟩
abbrev main_call2_c_2 : Ref sig .tc := ⟨.hbm, 68, rfl⟩
abbrev main_call2_v6 : Ref sig .tc := ⟨.hbm, 69, rfl⟩
abbrev main_call2_v7 : Ref sig .tc := ⟨.hbm, 70, rfl⟩
abbrev main_call2_v8 : Ref sig .tc := ⟨.hbm, 71, rfl⟩
abbrev main_call2_v9 : Ref sig .tc := ⟨.hbm, 72, rfl⟩
abbrev main_call2_v10 : Ref sig .tc := ⟨.hbm, 73, rfl⟩
abbrev main_call2_v11 : Ref sig .tc := ⟨.hbm, 74, rfl⟩
abbrev main_call2_c_3 : Ref sig .tc := ⟨.hbm, 75, rfl⟩
abbrev main_call2_v12 : Ref sig .tc := ⟨.hbm, 76, rfl⟩
abbrev main_call2_v13 : Ref sig .tc := ⟨.hbm, 77, rfl⟩
abbrev main_call2_cst : Ref sig .tc := ⟨.hbm, 78, rfl⟩
abbrev main_call2_v14 : Ref sig .tc := ⟨.hbm, 79, rfl⟩
abbrev main_v6 : Ref sig .tc := ⟨.hbm, 80, rfl⟩
abbrev main_call3_c : Ref sig .tc := ⟨.hbm, 81, rfl⟩
abbrev main_call3_v0 : Ref sig .tc := ⟨.hbm, 82, rfl⟩
abbrev main_call3_v1 : Ref sig .tc := ⟨.hbm, 83, rfl⟩
abbrev main_call3_c_0 : Ref sig .tc := ⟨.hbm, 84, rfl⟩
abbrev main_call3_v2 : Ref sig .tc := ⟨.hbm, 85, rfl⟩
abbrev main_call3_v3 : Ref sig .tc := ⟨.hbm, 86, rfl⟩
abbrev main_call3_v4 : Ref sig .tc := ⟨.hbm, 87, rfl⟩
abbrev main_call3_v5 : Ref sig .tc := ⟨.hbm, 88, rfl⟩
abbrev main_call3_c_1 : Ref sig .tc := ⟨.hbm, 89, rfl⟩
abbrev main_call3_c_2 : Ref sig .tc := ⟨.hbm, 90, rfl⟩
abbrev main_call3_v6 : Ref sig .tc := ⟨.hbm, 91, rfl⟩
abbrev main_call3_v7 : Ref sig .tc := ⟨.hbm, 92, rfl⟩
abbrev main_call3_v8 : Ref sig .tc := ⟨.hbm, 93, rfl⟩
abbrev main_call3_v9 : Ref sig .tc := ⟨.hbm, 94, rfl⟩
abbrev main_call3_v10 : Ref sig .tc := ⟨.hbm, 95, rfl⟩
abbrev main_call3_v11 : Ref sig .tc := ⟨.hbm, 96, rfl⟩
abbrev main_call3_c_3 : Ref sig .tc := ⟨.hbm, 97, rfl⟩
abbrev main_call3_v12 : Ref sig .tc := ⟨.hbm, 98, rfl⟩
abbrev main_call3_v13 : Ref sig .tc := ⟨.hbm, 99, rfl⟩
abbrev main_call3_cst : Ref sig .tc := ⟨.hbm, 100, rfl⟩
abbrev main_call3_v14 : Ref sig .tc := ⟨.hbm, 101, rfl⟩
abbrev main_v7 : Ref sig .tc := ⟨.hbm, 102, rfl⟩
abbrev main_call4_c : Ref sig .tc := ⟨.hbm, 103, rfl⟩
abbrev main_call4_v0 : Ref sig .tc := ⟨.hbm, 104, rfl⟩
abbrev main_call4_v1 : Ref sig .tc := ⟨.hbm, 105, rfl⟩
abbrev main_call4_c_0 : Ref sig .tc := ⟨.hbm, 106, rfl⟩
abbrev main_call4_v2 : Ref sig .tc := ⟨.hbm, 107, rfl⟩
abbrev main_call4_v3 : Ref sig .tc := ⟨.hbm, 108, rfl⟩
abbrev main_call4_v4 : Ref sig .tc := ⟨.hbm, 109, rfl⟩
abbrev main_call4_v5 : Ref sig .tc := ⟨.hbm, 110, rfl⟩
abbrev main_call4_c_1 : Ref sig .tc := ⟨.hbm, 111, rfl⟩
abbrev main_call4_c_2 : Ref sig .tc := ⟨.hbm, 112, rfl⟩
abbrev main_call4_v6 : Ref sig .tc := ⟨.hbm, 113, rfl⟩
abbrev main_call4_v7 : Ref sig .tc := ⟨.hbm, 114, rfl⟩
abbrev main_call4_v8 : Ref sig .tc := ⟨.hbm, 115, rfl⟩
abbrev main_call4_v9 : Ref sig .tc := ⟨.hbm, 116, rfl⟩
abbrev main_call4_v10 : Ref sig .tc := ⟨.hbm, 117, rfl⟩
abbrev main_call4_v11 : Ref sig .tc := ⟨.hbm, 118, rfl⟩
abbrev main_call4_c_3 : Ref sig .tc := ⟨.hbm, 119, rfl⟩
abbrev main_call4_v12 : Ref sig .tc := ⟨.hbm, 120, rfl⟩
abbrev main_call4_v13 : Ref sig .tc := ⟨.hbm, 121, rfl⟩
abbrev main_call4_cst : Ref sig .tc := ⟨.hbm, 122, rfl⟩
abbrev main_call4_v14 : Ref sig .tc := ⟨.hbm, 123, rfl⟩
abbrev main_v8 : Ref sig .tc := ⟨.hbm, 124, rfl⟩
abbrev main_v9 : Ref sig .tc := ⟨.hbm, 125, rfl⟩
abbrev main_v10 : Ref sig .tc := ⟨.hbm, 126, rfl⟩
abbrev main_v11 : Ref sig .tc := ⟨.hbm, 127, rfl⟩
abbrev main_v12 : Ref sig .tc := ⟨.hbm, 128, rfl⟩
abbrev main_call5_c : Ref sig .tc := ⟨.hbm, 129, rfl⟩
abbrev main_call5_v0 : Ref sig .tc := ⟨.hbm, 130, rfl⟩
abbrev main_call5_v1 : Ref sig .tc := ⟨.hbm, 131, rfl⟩
abbrev main_call5_c_0 : Ref sig .tc := ⟨.hbm, 132, rfl⟩
abbrev main_call5_v2 : Ref sig .tc := ⟨.hbm, 133, rfl⟩
abbrev main_call5_v3 : Ref sig .tc := ⟨.hbm, 134, rfl⟩
abbrev main_call5_v4 : Ref sig .tc := ⟨.hbm, 135, rfl⟩
abbrev main_call5_v5 : Ref sig .tc := ⟨.hbm, 136, rfl⟩
abbrev main_call5_c_1 : Ref sig .tc := ⟨.hbm, 137, rfl⟩
abbrev main_call5_c_2 : Ref sig .tc := ⟨.hbm, 138, rfl⟩
abbrev main_call5_v6 : Ref sig .tc := ⟨.hbm, 139, rfl⟩
abbrev main_call5_v7 : Ref sig .tc := ⟨.hbm, 140, rfl⟩
abbrev main_call5_v8 : Ref sig .tc := ⟨.hbm, 141, rfl⟩
abbrev main_call5_v9 : Ref sig .tc := ⟨.hbm, 142, rfl⟩
abbrev main_call5_v10 : Ref sig .tc := ⟨.hbm, 143, rfl⟩
abbrev main_call5_v11 : Ref sig .tc := ⟨.hbm, 144, rfl⟩
abbrev main_call5_c_3 : Ref sig .tc := ⟨.hbm, 145, rfl⟩
abbrev main_call5_v12 : Ref sig .tc := ⟨.hbm, 146, rfl⟩
abbrev main_call5_v13 : Ref sig .tc := ⟨.hbm, 147, rfl⟩
abbrev main_call5_v14 : Ref sig .tc := ⟨.hbm, 148, rfl⟩
abbrev main_call5_c_4 : Ref sig .tc := ⟨.hbm, 149, rfl⟩
abbrev main_call5_v15 : Ref sig .tc := ⟨.hbm, 150, rfl⟩
abbrev main_v13 : Ref sig .tc := ⟨.hbm, 151, rfl⟩
abbrev main_call6_c : Ref sig .tc := ⟨.hbm, 152, rfl⟩
abbrev main_call6_v0 : Ref sig .tc := ⟨.hbm, 153, rfl⟩
abbrev main_call6_v1 : Ref sig .tc := ⟨.hbm, 154, rfl⟩
abbrev main_call6_c_0 : Ref sig .tc := ⟨.hbm, 155, rfl⟩
abbrev main_call6_v2 : Ref sig .tc := ⟨.hbm, 156, rfl⟩
abbrev main_call6_v3 : Ref sig .tc := ⟨.hbm, 157, rfl⟩
abbrev main_call6_v4 : Ref sig .tc := ⟨.hbm, 158, rfl⟩
abbrev main_call6_v5 : Ref sig .tc := ⟨.hbm, 159, rfl⟩
abbrev main_call6_c_1 : Ref sig .tc := ⟨.hbm, 160, rfl⟩
abbrev main_call6_c_2 : Ref sig .tc := ⟨.hbm, 161, rfl⟩
abbrev main_call6_v6 : Ref sig .tc := ⟨.hbm, 162, rfl⟩
abbrev main_call6_v7 : Ref sig .tc := ⟨.hbm, 163, rfl⟩
abbrev main_call6_v8 : Ref sig .tc := ⟨.hbm, 164, rfl⟩
abbrev main_call6_v9 : Ref sig .tc := ⟨.hbm, 165, rfl⟩
abbrev main_call6_v10 : Ref sig .tc := ⟨.hbm, 166, rfl⟩
abbrev main_call6_v11 : Ref sig .tc := ⟨.hbm, 167, rfl⟩
abbrev main_call6_c_3 : Ref sig .tc := ⟨.hbm, 168, rfl⟩
abbrev main_call6_v12 : Ref sig .tc := ⟨.hbm, 169, rfl⟩
abbrev main_call6_v13 : Ref sig .tc := ⟨.hbm, 170, rfl⟩
abbrev main_call6_v14 : Ref sig .tc := ⟨.hbm, 171, rfl⟩
abbrev main_call6_cst : Ref sig .tc := ⟨.hbm, 172, rfl⟩
abbrev main_call6_v15 : Ref sig .tc := ⟨.hbm, 173, rfl⟩
abbrev main_v14 : Ref sig .tc := ⟨.hbm, 174, rfl⟩
abbrev main_cst : Ref sig .tc := ⟨.hbm, 175, rfl⟩
abbrev main_v15 : Ref sig .tc := ⟨.hbm, 176, rfl⟩
abbrev main_v16 : Ref sig .tc := ⟨.hbm, 177, rfl⟩
abbrev main_v17 : Ref sig .tc := ⟨.hbm, 178, rfl⟩
abbrev main_v18 : Ref sig .tc := ⟨.hbm, 179, rfl⟩
abbrev main_v19 : Ref sig .tc := ⟨.hbm, 180, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S16384x2_S16384x1_0_0 : S16384x2.Slices ![0, 0] S16384x1
  shapeCasts_S16384x1_S16384 : S16384x1.ShapeCasts S16384
  slices_S16384x2_S16384x1_0_1 : S16384x2.Slices ![0, 1] S16384x1
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S16384_S16384x64_0 : S16384.BroadcastsInDim S16384x64 (![0] : Fin 1 → Fin S16384x64.rank)
  bcast_S_S16384x64 : S_.BroadcastsInDim S16384x64 (![] : Fin 0 → Fin S16384x64.rank)
  concatenates_S16384x1_S16384x1_S16384x2_d1 : Shape.Concatenates [S16384x1, S16384x1] S16384x2 1
  bcast_S16384_S16384x50_0 : S16384.BroadcastsInDim S16384x50 (![0] : Fin 1 → Fin S16384x50.rank)
  bcast_S_S16384x50 : S_.BroadcastsInDim S16384x50 (![] : Fin 0 → Fin S16384x50.rank)
  bcast_S16384x50_S16384x50x1_0_1 : S16384x50.BroadcastsInDim S16384x50x1 (![0, 1] : Fin 2 → Fin S16384x50x1.rank)
  bcast_S_S16384x50x1 : S_.BroadcastsInDim S16384x50x1 (![] : Fin 0 → Fin S16384x50x1.rank)
  bcast_S1_S1x1x1_2 : S1.BroadcastsInDim S1x1x1 (![2] : Fin 1 → Fin S1x1x1.rank)
  bcast_S1x1x1_S16384x50x1_0_1_2 : S1x1x1.BroadcastsInDim S16384x50x1 (![0, 1, 2] : Fin 3 → Fin S16384x50x1.rank)
  reducesTo_S16384x50x1_S16384x50_d2 : S16384x50x1.ReducesTo [2] S16384x50
  bcast_S16384x50_S16384x50x64_0_1 : S16384x50.BroadcastsInDim S16384x50x64 (![0, 1] : Fin 2 → Fin S16384x50x64.rank)
  bcast_S_S16384x50x64 : S_.BroadcastsInDim S16384x50x64 (![] : Fin 0 → Fin S16384x50x64.rank)
  reducesTo_S16384x50x64_S16384x64_d1 : S16384x50x64.ReducesTo [1] S16384x64
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S2048x2_S2048x2_0_0 : ∀ a, (![0, 0] : Fin 2 → Nat) a + S2048x2.size a ≤ S2048x2.size a
  h_S2048x2 : 0 < S2048x2.numel
  shapeCasts_S2048x2_S2048x2 : S2048x2.ShapeCasts S2048x2
  slices_S2048x2_o0_0_S2048x1 : S2048x2.Slices ![0, 0] S2048x1
  slices_S2048x2_o0_1_S2048x1 : S2048x2.Slices ![0, 1] S2048x1
  broadcasts_S2048x1_S2048x64 : S2048x1.Broadcasts S2048x64
  reduces_S2048x64_S2048 : S2048x64.Reduces [1] S2048
  shapeCasts_S2048_S2048x1 : S2048.ShapeCasts S2048x1
  inb_S2048x1_S2048x1_0_0 : ∀ a, (![0, 0] : Fin 2 → Nat) a + S2048x1.size a ≤ S2048x1.size a
  h_S2048x1 : 0 < S2048x1.numel
  gather_S100000x64_S16384x1_S16384x64_1_0_n_n_0_1_164_wf : GatherDims.WF S100000x64 S16384x1 S16384x64 [1] [0] [] [0] [] 1 ![1, 64]
  gather_S20000x64_S16384x1_S16384x64_1_0_n_n_0_1_164_wf : GatherDims.WF S20000x64 S16384x1 S16384x64 [1] [0] [] [0] [] 1 ![1, 64]
  gather_S100000_S16384x1_S16384_n_0_n_n_0_1_1_wf : GatherDims.WF S100000 S16384x1 S16384 [] [0] [] [0] [] 1 ![1]
  gather_S20000_S16384x1_S16384_n_0_n_n_0_1_1_wf : GatherDims.WF S20000 S16384x1 S16384 [] [0] [] [0] [] 1 ![1]
  gather_S100000x50_S16384x1_S16384x50_1_0_n_n_0_1_150_wf : GatherDims.WF S100000x50 S16384x1 S16384x50 [1] [0] [] [0] [] 1 ![1, 50]
  gather_S20000x64_S16384x50x1_S16384x50x64_2_0_n_n_0_2_164_wf : GatherDims.WF S20000x64 S16384x50x1 S16384x50x64 [2] [0] [] [0] [] 2 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x64.size a ≤ S16384x64.size a
  hwx0_0 : ∀ i : grid0.Coords, EltTy.bits .f32 = 32 ∨ (Rect.block (s := S16384x64) S2048x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x64.size a ≤ S16384x64.size a
  hwx0_1 : ∀ i : grid0.Coords, EltTy.bits .f32 = 32 ∨ (Rect.block (s := S16384x64) S2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x2.size a ≤ S16384x2.size a
  hwx0_2 : ∀ i : grid0.Coords, EltTy.bits .f32 = 32 ∨ (Rect.block (s := S16384x2) S2048x2.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x64.size a ≤ S16384x64.size a
  hwx0_3 : ∀ i : grid0.Coords, EltTy.bits .f32 = 32 ∨ (Rect.block (s := S16384x64) S2048x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x1.size a ≤ S16384x1.size a
  hwx0_4 : ∀ i : grid0.Coords, EltTy.bits .f32 = 32 ∨ (Rect.block (s := S16384x1) S2048x1.size (cc0_transform_4 i) (hinb0_4 i)).WholeWords (EltTy.packing .f32)

variable [Facts₀]

def gather_S100000x64_S16384x1_S16384x64_1_0_n_n_0_1_164 : GatherDims S100000x64 S16384x1 S16384x64 where
  offsetDims := [1]
  collapsedSliceDims := [0]
  operandBatchingDims := []
  startIndicesBatchingDims := []
  startIndexMap := [0]
  indexVectorDim := 1
  sliceSizes := ![1, 64]
  wf := gather_S100000x64_S16384x1_S16384x64_1_0_n_n_0_1_164_wf
def gather_S20000x64_S16384x1_S16384x64_1_0_n_n_0_1_164 : GatherDims S20000x64 S16384x1 S16384x64 where
  offsetDims := [1]
  collapsedSliceDims := [0]
  operandBatchingDims := []
  startIndicesBatchingDims := []
  startIndexMap := [0]
  indexVectorDim := 1
  sliceSizes := ![1, 64]
  wf := gather_S20000x64_S16384x1_S16384x64_1_0_n_n_0_1_164_wf
def gather_S100000_S16384x1_S16384_n_0_n_n_0_1_1 : GatherDims S100000 S16384x1 S16384 where
  offsetDims := []
  collapsedSliceDims := [0]
  operandBatchingDims := []
  startIndicesBatchingDims := []
  startIndexMap := [0]
  indexVectorDim := 1
  sliceSizes := ![1]
  wf := gather_S100000_S16384x1_S16384_n_0_n_n_0_1_1_wf
def gather_S20000_S16384x1_S16384_n_0_n_n_0_1_1 : GatherDims S20000 S16384x1 S16384 where
  offsetDims := []
  collapsedSliceDims := [0]
  operandBatchingDims := []
  startIndicesBatchingDims := []
  startIndexMap := [0]
  indexVectorDim := 1
  sliceSizes := ![1]
  wf := gather_S20000_S16384x1_S16384_n_0_n_n_0_1_1_wf
def gather_S100000x50_S16384x1_S16384x50_1_0_n_n_0_1_150 : GatherDims S100000x50 S16384x1 S16384x50 where
  offsetDims := [1]
  collapsedSliceDims := [0]
  operandBatchingDims := []
  startIndicesBatchingDims := []
  startIndexMap := [0]
  indexVectorDim := 1
  sliceSizes := ![1, 50]
  wf := gather_S100000x50_S16384x1_S16384x50_1_0_n_n_0_1_150_wf
def gather_S20000x64_S16384x50x1_S16384x50x64_2_0_n_n_0_2_164 : GatherDims S20000x64 S16384x50x1 S16384x50x64 where
  offsetDims := [2]
  collapsedSliceDims := [0]
  operandBatchingDims := []
  startIndicesBatchingDims := []
  startIndexMap := [0]
  indexVectorDim := 2
  sliceSizes := ![1, 64]
  wf := gather_S20000x64_S16384x50x1_S16384x50x64_2_0_n_n_0_2_164_wf

abbrev win0_0 : Pipeline.Window sig grid0 :=
  Pipeline.Window.ofSpec (Memref.whole main_v4) S2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S2048x2.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S2048x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v16) S2048x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16384x2 : Shape := ⟨2, ![16384, 2]⟩
abbrev S100000x50 : Shape := ⟨2, ![100000, 50]⟩
abbrev S100000x64 : Shape := ⟨2, ![100000, 64]⟩
abbrev S20000x64 : Shape := ⟨2, ![20000, 64]⟩
abbrev S100000 : Shape := ⟨1, ![100000]⟩
abbrev S20000 : Shape := ⟨1, ![20000]⟩
abbrev S_ : Shape := ⟨0, ![]⟩
abbrev S16384x1 : Shape := ⟨2, ![16384, 1]⟩
abbrev S16384 : Shape := ⟨1, ![16384]⟩
abbrev S16384x64 : Shape := ⟨2, ![16384, 64]⟩
abbrev S16384x50 : Shape := ⟨2, ![16384, 50]⟩
abbrev S16384x50x1 : Shape := ⟨3, ![16384, 50, 1]⟩
abbrev S16384x50x64 : Shape := ⟨3, ![16384, 50, 64]⟩

abbrev nBuf : Space → Nat
  | .hbm => 89
  | .vmem => 0
  | .smem => 0
  | _ => 0

abbrev bufTy : (tb : Table) → Fin (tcTables nBuf tb) → BufTy
  | .hbm, ⟨0, _⟩ => ⟨S16384x2, .i32⟩
  | .hbm, ⟨1, _⟩ => ⟨S100000x50, .i32⟩
  | .hbm, ⟨2, _⟩ => ⟨S100000x64, .f32⟩
  | .hbm, ⟨3, _⟩ => ⟨S20000x64, .f32⟩
  | .hbm, ⟨4, _⟩ => ⟨S100000, .f32⟩
  | .hbm, ⟨5, _⟩ => ⟨S20000, .f32⟩
  | .hbm, ⟨6, _⟩ => ⟨S20000x64, .f32⟩
  | .hbm, ⟨7, _⟩ => ⟨S100000, .f32⟩
  | .hbm, ⟨8, _⟩ => ⟨S_, .f32⟩
  | .hbm, ⟨9, _⟩ => ⟨S16384x1, .i32⟩
  | .hbm, ⟨10, _⟩ => ⟨S16384, .i32⟩
  | .hbm, ⟨11, _⟩ => ⟨S16384x1, .i32⟩
  | .hbm, ⟨12, _⟩ => ⟨S16384, .i32⟩
  | .hbm, ⟨13, _⟩ => ⟨S_, .i32⟩
  | .hbm, ⟨14, _⟩ => ⟨S16384, .i32⟩
  | .hbm, ⟨15, _⟩ => ⟨S16384, .i1⟩
  | .hbm, ⟨16, _⟩ => ⟨S_, .i32⟩
  | .hbm, ⟨17, _⟩ => ⟨S16384, .i32⟩
  | .hbm, ⟨18, _⟩ => ⟨S16384, .i32⟩
  | .hbm, ⟨19, _⟩ => ⟨S16384, .i32⟩
  | .hbm, ⟨20, _⟩ => ⟨S16384x1, .i32⟩
  | .hbm, ⟨21, _⟩ => ⟨S16384x64, .f32⟩
  | .hbm, ⟨22, _⟩ => ⟨S_, .i32⟩
  | .hbm, ⟨23, _⟩ => ⟨S16384, .i32⟩
  | .hbm, ⟨24, _⟩ => ⟨S16384, .i1⟩
  | .hbm, ⟨25, _⟩ => ⟨S_, .i32⟩
  | .hbm, ⟨26, _⟩ => ⟨S16384, .i32⟩
  | .hbm, ⟨27, _⟩ => ⟨S16384, .i32⟩
  | .hbm, ⟨28, _⟩ => ⟨S16384, .i32⟩
  | .hbm, ⟨29, _⟩ => ⟨S16384x1, .i32⟩
  | .hbm, ⟨30, _⟩ => ⟨S16384x64, .f32⟩
  | .hbm, ⟨31, _⟩ => ⟨S_, .i32⟩
  | .hbm, ⟨32, _⟩ => ⟨S16384, .i32⟩
  | .hbm, ⟨33, _⟩ => ⟨S16384, .i1⟩
  | .hbm, ⟨34, _⟩ => ⟨S_, .i32⟩
  | .hbm, ⟨35, _⟩ => ⟨S16384, .i32⟩
  | .hbm, ⟨36, _⟩ => ⟨S16384, .i32⟩
  | .hbm, ⟨37, _⟩ => ⟨S16384, .i32⟩
  | .hbm, ⟨38, _⟩ => ⟨S16384x1, .i32⟩
  | .hbm, ⟨39, _⟩ => ⟨S16384x50, .i32⟩
  | .hbm, ⟨40, _⟩ => ⟨S_, .i32⟩
  | .hbm, ⟨41, _⟩ => ⟨S16384x50, .i32⟩
  | .hbm, ⟨42, _⟩ => ⟨S16384x50, .i1⟩
  | .hbm, ⟨43, _⟩ => ⟨S_, .i32⟩
  | .hbm, ⟨44, _⟩ => ⟨S16384x50, .i32⟩
  | .hbm, ⟨45, _⟩ => ⟨S16384x50, .i32⟩
  | .hbm, ⟨46, _⟩ => ⟨S16384x50, .i32⟩
  | .hbm, ⟨47, _⟩ => ⟨S16384x50x1, .i32⟩
  | .hbm, ⟨48, _⟩ => ⟨S16384x50x64, .f32⟩
  | .hbm, ⟨49, _⟩ => ⟨S_, .f32⟩
  | .hbm, ⟨50, _⟩ => ⟨S16384x64, .f32⟩
  | .hbm, ⟨51, _⟩ => ⟨S_, .i32⟩
  | .hbm, ⟨52, _⟩ => ⟨S16384, .i32⟩
  | .hbm, ⟨53, _⟩ => ⟨S16384, .i1⟩
  | .hbm, ⟨54, _⟩ => ⟨S_, .i32⟩
  | .hbm, ⟨55, _⟩ => ⟨S16384, .i32⟩
  | .hbm, ⟨56, _⟩ => ⟨S16384, .i32⟩
  | .hbm, ⟨57, _⟩ => ⟨S16384, .i32⟩
  | .hbm, ⟨58, _⟩ => ⟨S16384x1, .i32⟩
  | .hbm, ⟨59, _⟩ => ⟨S16384, .f32⟩
  | .hbm, ⟨60, _⟩ => ⟨S16384x1, .f32⟩
  | .hbm, ⟨61, _⟩ => ⟨S16384x64, .f32⟩
  | .hbm, ⟨62, _⟩ => ⟨S16384x64, .f32⟩
  | .hbm, ⟨63, _⟩ => ⟨S16384x64, .f32⟩
  | .hbm, ⟨64, _⟩ => ⟨S_, .i32⟩
  | .hbm, ⟨65, _⟩ => ⟨S16384, .i32⟩
  | .hbm, ⟨66, _⟩ => ⟨S16384, .i1⟩
  | .hbm, ⟨67, _⟩ => ⟨S_, .i32⟩
  | .hbm, ⟨68, _⟩ => ⟨S16384, .i32⟩
  | .hbm, ⟨69, _⟩ => ⟨S16384, .i32⟩
  | .hbm, ⟨70, _⟩ => ⟨S16384, .i32⟩
  | .hbm, ⟨71, _⟩ => ⟨S16384x1, .i32⟩
  | .hbm, ⟨72, _⟩ => ⟨S16384, .f32⟩
  | .hbm, ⟨73, _⟩ => ⟨S16384, .f32⟩
  | .hbm, ⟨74, _⟩ => ⟨S16384, .f32⟩
  | .hbm, ⟨75, _⟩ => ⟨S_, .i32⟩
  | .hbm, ⟨76, _⟩ => ⟨S16384, .i32⟩
  | .hbm, ⟨77, _⟩ => ⟨S16384, .i1⟩
  | .hbm, ⟨78, _⟩ => ⟨S_, .i32⟩
  | .hbm, ⟨79, _⟩ => ⟨S16384, .i32⟩
  | .hbm, ⟨80, _⟩ => ⟨S16384, .i32⟩
  | .hbm, ⟨81, _⟩ => ⟨S16384, .i32⟩
  | .hbm, ⟨82, _⟩ => ⟨S16384x1, .i32⟩
  | .hbm, ⟨83, _⟩ => ⟨S16384, .f32⟩
  | .hbm, ⟨84, _⟩ => ⟨S16384, .f32⟩
  | .hbm, ⟨85, _⟩ => ⟨S16384x64, .f32⟩
  | .hbm, ⟨86, _⟩ => ⟨S_, .f32⟩
  | .hbm, ⟨87, _⟩ => ⟨S16384, .f32⟩
  | .hbm, ⟨88, _⟩ => ⟨S16384, .f32⟩
  | _, _ => ⟨S16384x2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_c_8 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_c_9 : Ref sig .tc := ⟨.hbm, 64, rfl⟩
abbrev main_v44 : Ref sig .tc := ⟨.hbm, 65, rfl⟩
abbrev main_v45 : Ref sig .tc := ⟨.hbm, 66, rfl⟩
abbrev main_c_10 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_c_11 : Ref sig .tc := ⟨.hbm, 75, rfl⟩
abbrev main_v53 : Ref sig .tc := ⟨.hbm, 76, rfl⟩
abbrev main_v54 : Ref sig .tc := ⟨.hbm, 77, rfl⟩
abbrev main_c_12 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_13 : Ref sig .tc := ⟨.hbm, 86, rfl⟩
abbrev main_v62 : Ref sig .tc := ⟨.hbm, 87, rfl⟩
abbrev main_v63 : Ref sig .tc := ⟨.hbm, 88, rfl⟩

abbrev nD : Nat := 1
abbrev τ : Topo := Topo.v7x

variable {F : FTy → Type} [FloatOps F]

class Facts₀ : Prop where
  slices_S16384x2_S16384x1_0_0 : S16384x2.Slices ![0, 0] S16384x1
  shapeCasts_S16384x1_S16384 : S16384x1.ShapeCasts S16384
  slices_S16384x2_S16384x1_0_1 : S16384x2.Slices ![0, 1] S16384x1
  bcast_S_S16384 : S_.BroadcastsInDim S16384 (![] : Fin 0 → Fin S16384.rank)
  bcast_S16384_S16384x1_0 : S16384.BroadcastsInDim S16384x1 (![0] : Fin 1 → Fin S16384x1.rank)
  bcast_S_S16384x50 : S_.BroadcastsInDim S16384x50 (![] : Fin 0 → Fin S16384x50.rank)
  bcast_S16384x50_S16384x50x1_0_1 : S16384x50.BroadcastsInDim S16384x50x1 (![0, 1] : Fin 2 → Fin S16384x50x1.rank)
  reducesTo_S16384x50x64_S16384x64_d1 : S16384x50x64.ReducesTo [1] S16384x64
  h_S_ : 0 < S_.numel
  bcast_S16384x1_S16384x64_0_1 : S16384x1.BroadcastsInDim S16384x64 (![0, 1] : Fin 2 → Fin S16384x64.rank)
  reducesTo_S16384x64_S16384_d1 : S16384x64.ReducesTo [1] S16384
  gather_S100000x64_S16384x1_S16384x64_1_0_n_n_0_1_164_wf : GatherDims.WF S100000x64 S16384x1 S16384x64 [1] [0] [] [0] [] 1 ![1, 64]
  gather_S20000x64_S16384x1_S16384x64_1_0_n_n_0_1_164_wf : GatherDims.WF S20000x64 S16384x1 S16384x64 [1] [0] [] [0] [] 1 ![1, 64]
  gather_S100000x50_S16384x1_S16384x50_1_0_n_n_0_1_150_wf : GatherDims.WF S100000x50 S16384x1 S16384x50 [1] [0] [] [0] [] 1 ![1, 50]
  gather_S20000x64_S16384x50x1_S16384x50x64_2_0_n_n_0_2_164_wf : GatherDims.WF S20000x64 S16384x50x1 S16384x50x64 [2] [0] [] [0] [] 2 ![1, 64]
  gather_S100000_S16384x1_S16384_n_0_n_n_0_1_1_wf : GatherDims.WF S100000 S16384x1 S16384 [] [0] [] [0] [] 1 ![1]
  gather_S20000_S16384x1_S16384_n_0_n_n_0_1_1_wf : GatherDims.WF S20000 S16384x1 S16384 [] [0] [] [0] [] 1 ![1]

variable [Facts₀]

def gather_S100000x64_S16384x1_S16384x64_1_0_n_n_0_1_164 : GatherDims S100000x64 S16384x1 S16384x64 where
  offsetDims := [1]
  collapsedSliceDims := [0]
  operandBatchingDims := []
  startIndicesBatchingDims := []
  startIndexMap := [0]
  indexVectorDim := 1
  sliceSizes := ![1, 64]
  wf := gather_S100000x64_S16384x1_S16384x64_1_0_n_n_0_1_164_wf
def gather_S20000x64_S16384x1_S16384x64_1_0_n_n_0_1_164 : GatherDims S20000x64 S16384x1 S16384x64 where
  offsetDims := [1]
  collapsedSliceDims := [0]
  operandBatchingDims := []
  startIndicesBatchingDims := []
  startIndexMap := [0]
  indexVectorDim := 1
  sliceSizes := ![1, 64]
  wf := gather_S20000x64_S16384x1_S16384x64_1_0_n_n_0_1_164_wf
def gather_S100000x50_S16384x1_S16384x50_1_0_n_n_0_1_150 : GatherDims S100000x50 S16384x1 S16384x50 where
  offsetDims := [1]
  collapsedSliceDims := [0]
  operandBatchingDims := []
  startIndicesBatchingDims := []
  startIndexMap := [0]
  indexVectorDim := 1
  sliceSizes := ![1, 50]
  wf := gather_S100000x50_S16384x1_S16384x50_1_0_n_n_0_1_150_wf
def gather_S20000x64_S16384x50x1_S16384x50x64_2_0_n_n_0_2_164 : GatherDims S20000x64 S16384x50x1 S16384x50x64 where
  offsetDims := [2]
  collapsedSliceDims := [0]
  operandBatchingDims := []
  startIndicesBatchingDims := []
  startIndexMap := [0]
  indexVectorDim := 2
  sliceSizes := ![1, 64]
  wf := gather_S20000x64_S16384x50x1_S16384x50x64_2_0_n_n_0_2_164_wf
def gather_S100000_S16384x1_S16384_n_0_n_n_0_1_1 : GatherDims S100000 S16384x1 S16384 where
  offsetDims := []
  collapsedSliceDims := [0]
  operandBatchingDims := []
  startIndicesBatchingDims := []
  startIndexMap := [0]
  indexVectorDim := 1
  sliceSizes := ![1]
  wf := gather_S100000_S16384x1_S16384_n_0_n_n_0_1_1_wf
def gather_S20000_S16384x1_S16384_n_0_n_n_0_1_1 : GatherDims S20000 S16384x1 S16384 where
  offsetDims := []
  collapsedSliceDims := [0]
  operandBatchingDims := []
  startIndicesBatchingDims := []
  startIndexMap := [0]
  indexVectorDim := 1
  sliceSizes := ![1]
  wf := gather_S20000_S16384x1_S16384_n_0_n_n_0_1_1_wf

class Facts : Prop extends Facts₀ where

variable [Facts]
-- ==== Proof.KernelPay.lean ====
/-
  The kernel body's one store, read at row `p` of its [2048, 1] block: the row's bias (column 0 of the bias block)
  plus the lane sum over the 64 factors of (pu + inv · ysum) · qi, with inv the row's entry in column 1 of the bias block.
-/
import proofs.«428425_j80925773791743_4_alg».proof.Proof.Gen.KernelIdeal.Skeleton
import Idealize.ShloMosaic.PureOps.Ideal.Laws
import Idealize.ShloMosaic.Lib.Pipeline.Value
import Idealize.ShloMosaic.Lib.ValueIdx

noncomputable section

open scoped BigOperators

namespace Cert.KernelIdeal.Pay

open Cert.KernelIdeal Cert.KernelIdeal.Gen Idealize.ShloMosaic Idealize.ShloMosaic.ValueIdx Idealize.ShloMosaic.Pipeline

theorem lift_eq (p : Fin 2048) (f : Fin 64) : reduces_S2048x64_S2048.lift (ix1 p) f = ix2 p f := by
  funext a
  apply Fin.ext
  match a with
  | ⟨0, _⟩ => rfl
  | ⟨1, _⟩ => rfl

/-- The lane sum of a [2048, 64] block at row `p`, as a plain sum over the 64 lanes. -/
theorem lane_sum (src : FVec Ideal S2048x64 .f32) (hφ : FKind.Formats FTy.f32)
    (hacc : (0x00000000#32 : BitVec 32) = 0x00000000#32) (p : Fin 2048) :
    multiReduction .add [1] S2048 src 0x00000000#32 reduces_S2048x64_S2048 hφ hacc (ix1 p) = ∑ f : Fin 64, src (ix2 p f) := by
  refine (Ideal.multiReduction_add_single src 0x00000000#32 reduces_S2048x64_S2048 hφ hacc (ix1 p)).trans ?_
  exact Finset.sum_congr rfl fun f _ => congrArg src (lift_eq p f)

theorem pay_apply (x0 x1 x3 : Vec Ideal S2048x64 .f32) (x2 : Vec Ideal S2048x2 .f32) (p : Fin 2048) (q : Fin 1) :
    k0_pay1 (F := Ideal) x0 x1 x2 x3 (ix2 p q)
      = x2 (ix2 p (0 : Fin 2)) + ∑ f : Fin 64, (x0 (ix2 p f) + x2 (ix2 p (1 : Fin 2)) * x3 (ix2 p f)) * x1 (ix2 p f) := by
  have hq : q.val = 0 := by have := q.isLt; omega
  unfold k0_pay1
  simp only [shapeCast_self]
  rw [addf_apply]
  rw [extractStridedSlice_apply _ _ _ _ (ix2 p (0 : Fin 2)) (fun a => by
    match a with
    | ⟨0, _⟩ => show p.val = 0 + p.val; omega
    | ⟨1, _⟩ => show (0 : ℕ) = 0 + q.val; omega)]
  rw [shapeCast_apply _ _ _ (ix1 p) (by
    rw [Shape.rowMajor_val_two, Shape.rowMajor_val_one]; show p.val = p.val * 1 + q.val; omega)]
  rw [lane_sum]
  refine congrArg (x2 (ix2 p (0 : Fin 2)) + ·) (Finset.sum_congr rfl fun f _ => ?_)
  show (x0 (ix2 p f) + broadcastTo S2048x64 (extractStridedSlice S2048x1 ![0, 1] x2 slices_S2048x2_o0_1_S2048x1)
      broadcasts_S2048x1_S2048x64 (ix2 p f) * x3 (ix2 p f)) * x1 (ix2 p f) = _
  rw [broadcastTo_apply _ _ _ (ix2 p (0 : Fin 1)) (fun a => by
    match a with
    | ⟨0, _⟩ => rfl
    | ⟨1, _⟩ => rfl)]
  rw [extractStridedSlice_apply _ _ _ _ (ix2 p (1 : Fin 2)) (fun a => by
    match a with
    | ⟨0, _⟩ => show p.val = 0 + p.val; omega
    | ⟨1, _⟩ => show (1 : ℕ) = 1 + 0; rfl)]

end Cert.KernelIdeal.Pay

end
-- ==== Proof.KernelBlocks.lean ====
/-
  From blocks to the array. The region runs at 8 grid points; point `t` stages rows [2048 t, 2048 t + 2048) of each of
  its four input arrays and writes back the same rows of the [16384, 1] output. What it writes at row `p` of the
  block is the body's formula of row `p` of the input blocks, that is of row `2048 t + p` of the arrays; the 8 blocks
  tile the output, so the output array ends holding, at every row `r`, that formula of row `r` of the four arrays.
-/
import proofs.«428425_j80925773791743_4_alg».proof.Proof.Gen.KernelIdeal.Frame
import proofs.«428425_j80925773791743_4_alg».proof.Proof.KernelPay

noncomputable section

open scoped BigOperators

namespace Cert.KernelIdeal.Blocks

open Cert.KernelIdeal Cert.KernelIdeal.Gen Cert.KernelIdeal.Pay
open Idealize.ShloMosaic Idealize.ShloMosaic.TcCoe Idealize.SL.Sem Idealize.ShloMosaic.ValueIdx
open Idealize.ShloMosaic.Pipeline (Dat Cfg Window)

/-- The body's formula on whole arrays: row `r` of the output from row `r` of the inputs. -/
def outRows (pu qi ys : FVec Ideal S16384x64 .f32) (bias : FVec Ideal S16384x2 .f32) : FVec Ideal S16384x1 .f32 :=
  fun i => bias (ix2 (i 0 : Fin 16384) (0 : Fin 2))
    + ∑ f : Fin 64, (pu (ix2 (i 0 : Fin 16384) f) + bias (ix2 (i 0 : Fin 16384) (1 : Fin 2)) * ys (ix2 (i 0 : Fin 16384) f))
        * qi (ix2 (i 0 : Fin 16384) f)

/-- One block: if the input blocks are rows [2048 k, 2048 k + 2048) of the arrays, the body's store at row `p` is the
    formula at row `2048 k + p`. -/
theorem block_eq (x0 x1 x3 : Vec Ideal S2048x64 .f32) (x2 : Vec Ideal S2048x2 .f32)
    (A0 A1 A3 : FVec Ideal S16384x64 .f32) (A2 : FVec Ideal S16384x2 .f32) (p : Fin 2048) (q : Fin 1) (r : Fin 16384) (u : Fin 1)
    (h0 : ∀ f : Fin 64, x0 (ix2 p f) = A0 (ix2 r f)) (h1 : ∀ f : Fin 64, x1 (ix2 p f) = A1 (ix2 r f))
    (h3 : ∀ f : Fin 64, x3 (ix2 p f) = A3 (ix2 r f)) (h2 : ∀ k : Fin 2, x2 (ix2 p k) = A2 (ix2 r k)) :
    k0_pay1 (F := Ideal) x0 x1 x2 x3 (ix2 p q) = outRows A0 A1 A3 A2 (ix2 r u) := by
  rw [pay_apply]
  unfold outRows
  show _ = A2 (ix2 r (0 : Fin 2)) + ∑ f : Fin 64, (A0 (ix2 r f) + A2 (ix2 r (1 : Fin 2)) * A3 (ix2 r f)) * A1 (ix2 r f)
  rw [h2 0, h2 1]
  refine congrArg (A2 (ix2 r (0 : Fin 2)) + ·) (Finset.sum_congr rfl fun f _ => ?_)
  rw [h0 f, h1 f, h3 f]

variable (m : (ℓ : Loc nD τ sig) → Buf (Elt Ideal) ℓ)

theorem hz : (![0, 0] : Fin 2 → Nat) = fun _ => 0 := funext fun a => by fin_cases a <;> rfl

/-- The printed index maps over the 8 points: every window's block row is the output's, its block column 0. -/
theorem idx_facts : ∀ t : Fin cfg0.N,
    win0_0.index t (0 : Fin 2) = win0_4.index t (0 : Fin 2) ∧ win0_0.index t (1 : Fin 2) = 0
    ∧ win0_1.index t (0 : Fin 2) = win0_4.index t (0 : Fin 2) ∧ win0_1.index t (1 : Fin 2) = 0
    ∧ win0_2.index t (0 : Fin 2) = win0_4.index t (0 : Fin 2) ∧ win0_2.index t (1 : Fin 2) = 0
    ∧ win0_3.index t (0 : Fin 2) = win0_4.index t (0 : Fin 2) ∧ win0_3.index t (1 : Fin 2) = 0
    ∧ win0_4.index t (1 : Fin 2) = 0 ∧ win0_4.index t (0 : Fin 2) ≤ 7 :=
  (by decide +kernel : ∀ t : Fin grid0.N, _)

/-- Every block row 0 … 7 of the output is some point's. -/
theorem idx_onto : ∀ q0 : Fin 8, ∃ t : Fin cfg0.N, win0_4.index t = ![q0.val, 0] :=
  (by decide +kernel : ∀ q0 : Fin 8, ∃ t : Fin grid0.N, win0_4.index t = ![q0.val, 0])

/-- The four input blocks at point `t`, by their literal types. -/
abbrev puBlk (c : Dev nD) (t : Fin cfg0.N) : Vec Ideal S2048x64 .f32 := iblk m c 0 t
abbrev qiBlk (c : Dev nD) (t : Fin cfg0.N) : Vec Ideal S2048x64 .f32 := iblk m c 1 t
abbrev biasBlk (c : Dev nD) (t : Fin cfg0.N) : Vec Ideal S2048x2 .f32 := iblk m c 2 t
abbrev ysBlk (c : Dev nD) (t : Fin cfg0.N) : Vec Ideal S2048x64 .f32 := iblk m c 3 t

/-- Row `p` of each input block is row `2048 k + p` of its array, `k` the output's block row at the point. -/
theorem puBlk_apply (c : Dev nD) (t : Fin cfg0.N) (p : Fin 2048) (f : Fin 64) (r : Fin 16384)
    (hr : r.val = win0_4.index t (0 : Fin 2) * 2048 + p.val) : puBlk m c t (ix2 p f) = (V m c main_v4 : FVec Ideal S16384x64 .f32) (ix2 r f) := by
  obtain ⟨e0, e1, -⟩ := idx_facts t
  show (V m c main_v4 : FVec Ideal S16384x64 .f32) (((cfg0.win 0).blk t).view.emb (ix2 p f)) = _
  refine congrArg (V m c main_v4 : FVec Ideal S16384x64 .f32) (funext fun a => Fin.ext ?_)
  match a with
  | ⟨0, _⟩ => show win0_0.index t (0 : Fin 2) * 2048 + 1 * p.val = r.val; omega
  | ⟨1, _⟩ => show win0_0.index t (1 : Fin 2) * 64 + 1 * f.val = f.val; omega

theorem qiBlk_apply (c : Dev nD) (t : Fin cfg0.N) (p : Fin 2048) (f : Fin 64) (r : Fin 16384)
    (hr : r.val = win0_4.index t (0 : Fin 2) * 2048 + p.val) : qiBlk m c t (ix2 p f) = (V m c main_v5 : FVec Ideal S16384x64 .f32) (ix2 r f) := by
  obtain ⟨-, -, e0, e1, -⟩ := idx_facts t
  show (V m c main_v5 : FVec Ideal S16384x64 .f32) (((cfg0.win 1).blk t).view.emb (ix2 p f)) = _
  refine congrArg (V m c main_v5 : FVec Ideal S16384x64 .f32) (funext fun a => Fin.ext ?_)
  match a with
  | ⟨0, _⟩ => show win0_1.index t (0 : Fin 2) * 2048 + 1 * p.val = r.val; omega
  | ⟨1, _⟩ => show win0_1.index t (1 : Fin 2) * 64 + 1 * f.val = f.val; omega

theorem biasBlk_apply (c : Dev nD) (t : Fin cfg0.N) (p : Fin 2048) (k : Fin 2) (r : Fin 16384)
    (hr : r.val = win0_4.index t (0 : Fin 2) * 2048 + p.val) : biasBlk m c t (ix2 p k) = (V m c main_v12 : FVec Ideal S16384x2 .f32) (ix2 r k) := by
  obtain ⟨-, -, -, -, e0, e1, -⟩ := idx_facts t
  show (V m c main_v12 : FVec Ideal S16384x2 .f32) (((cfg0.win 2).blk t).view.emb (ix2 p k)) = _
  refine congrArg (V m c main_v12 : FVec Ideal S16384x2 .f32) (funext fun a => Fin.ext ?_)
  match a with
  | ⟨0, _⟩ => show win0_2.index t (0 : Fin 2) * 2048 + 1 * p.val = r.val; omega
  | ⟨1, _⟩ => show win0_2.index t (1 : Fin 2) * 2 + 1 * k.val = k.val; omega

theorem ysBlk_apply (c : Dev nD) (t : Fin cfg0.N) (p : Fin 2048) (f : Fin 64) (r : Fin 16384)
    (hr : r.val = win0_4.index t (0 : Fin 2) * 2048 + p.val) : ysBlk m c t (ix2 p f) = (V m c main_v15 : FVec Ideal S16384x64 .f32) (ix2 r f) := by
  obtain ⟨-, -, -, -, -, -, e0, e1, -⟩ := idx_facts t
  show (V m c main_v15 : FVec Ideal S16384x64 .f32) (((cfg0.win 3).blk t).view.emb (ix2 p f)) = _
  refine congrArg (V m c main_v15 : FVec Ideal S16384x64 .f32) (funext fun a => Fin.ext ?_)
  match a with
  | ⟨0, _⟩ => show win0_3.index t (0 : Fin 2) * 2048 + 1 * p.val = r.val; omega
  | ⟨1, _⟩ => show win0_3.index t (1 : Fin 2) * 64 + 1 * f.val = f.val; omega

/-- The formula on the four arrays as the region finds them. -/
abbrev outArr (c : Dev nD) : FVec Ideal S16384x1 .f32 :=
  outRows (V m c main_v4) (V m c main_v5) (V m c main_v15) (V m c main_v12)

/-- What point `t` writes back is block `t` of that array. -/
theorem flushed_eq (c : Dev nD) (t : Fin cfg0.N) :
    (dats m 0 c).flushed 4 t = ((cfg0.win 4).blk t).view.read (Elt Ideal) (outArr m c) := by
  show (cfg0.win 4).cut (grid0.coords t) ((dats m 0 c).after 4 t) = _
  rw [after0_4]
  unfold out0_4
  rw [View.canon_unit_zero hz]
  simp only [View.ld_unit_zero (S := S2048x64) hz, View.ld_unit_zero (S := S2048x2) hz]
  obtain ⟨-, -, -, -, -, -, -, -, e8, e9⟩ := idx_facts t
  funext j
  obtain ⟨p, q, rfl⟩ : ∃ (p : Fin 2048) (q : Fin 1), j = ix2 p q := ⟨j 0, j 1, eq_ix2 j⟩
  have hq : q.val = 0 := by have := q.isLt; omega
  have hE : ((cfg0.win 4).blk t).view.emb (ix2 p q)
      = ix2 (⟨win0_4.index t (0 : Fin 2) * 2048 + p.val, by have := p.isLt; omega⟩ : Fin 16384) (0 : Fin 1) := by
    funext a
    apply Fin.ext
    match a with
    | ⟨0, _⟩ => show win0_4.index t (0 : Fin 2) * 2048 + 1 * p.val = win0_4.index t (0 : Fin 2) * 2048 + p.val; omega
    | ⟨1, _⟩ => show win0_4.index t (1 : Fin 2) * 1 + 1 * q.val = 0; omega
  show k0_pay1 (F := Ideal) (puBlk m c t) (qiBlk m c t) (biasBlk m c t) (ysBlk m c t) (ix2 p q)
      = outArr m c (((cfg0.win 4).blk t).view.emb (ix2 p q))
  rw [hE]
  exact block_eq (puBlk m c t) (qiBlk m c t) (ysBlk m c t) (biasBlk m c t) (V m c main_v4) (V m c main_v5) (V m c main_v15)
    (V m c main_v12) p q _ 0 (fun f => puBlk_apply m c t p f _ rfl) (fun f => qiBlk_apply m c t p f _ rfl)
    (fun f => ysBlk_apply m c t p f _ rfl) (fun k => biasBlk_apply m c t p k _ rfl)

/-- An index of the output is in point `t`'s block iff each coordinate is in the block's range. -/
theorem mem_blk (t : Fin cfg0.N) (i : S16384x1.Idx) :
    i ∈ ((cfg0.win 4).blk t).view.set ↔ ∀ a : Fin 2, win0_4.index t a * S2048x1.size a ≤ (i a).val
      ∧ (i a).val < win0_4.index t a * S2048x1.size a + S2048x1.size a := by
  show i ∈ ((View.whole main_v16).slice (win0_4.rect t)).set ↔ _
  rw [View.set_slice_whole, Rect.mem_set_unit]
  exact Iff.rfl

/-- The 8 blocks tile the output: row `r` is in the block of the point whose block row is `r / 2048`. -/
theorem cover (i : S16384x1.Idx) : ∃ t : Fin cfg0.N, (cfg0.win 4).flush t = true ∧ i ∈ ((cfg0.win 4).blk t).view.set := by
  have hi0 : (i 0).val < 16384 := (i 0).isLt
  have hi1 : (i 1).val < 1 := (i 1).isLt
  obtain ⟨t, ht⟩ := idx_onto ⟨(i 0).val / 2048, by omega⟩
  have q0 : win0_4.index t (0 : Fin 2) = (i 0).val / 2048 := congrFun ht 0
  have q1 : win0_4.index t (1 : Fin 2) = 0 := congrFun ht 1
  refine ⟨t, flush0_4 t, ?_⟩
  rw [mem_blk]
  intro a
  match a with
  | ⟨0, _⟩ => show win0_4.index t (0 : Fin 2) * 2048 ≤ (i 0).val ∧ (i 0).val < win0_4.index t (0 : Fin 2) * 2048 + 2048; omega
  | ⟨1, _⟩ => show win0_4.index t (1 : Fin 2) * 1 ≤ (i 1).val ∧ (i 1).val < win0_4.index t (1 : Fin 2) * 1 + 1; omega

/-- The output array after the region. -/
theorem final (c : Dev nD) : (dats m 0 c).arrAt 4 cfg0.N = outArr m c :=
  (dats m 0 c).arrAt_eq_of_cover 4 (outArr m c) (fun t _ => flushed_eq m c t) cover

end Cert.KernelIdeal.Blocks

end
-- ==== Proof.KernelTail.lean ====
/-
  After the region @main reshapes the [16384, 1] output to a vector and adds the global mean to every entry: the
  kernel's result is, at row `b`, the region's output at row `b` plus `mu`.
-/
import proofs.«428425_j80925773791743_4_alg».proof.Proof.KernelBlocks
import Idealize.ShloMosaic.Lib.StableHlo.Run

noncomputable section

namespace Cert.KernelIdeal.Tail

open Cert.KernelIdeal Cert.KernelIdeal.Gen Cert.KernelIdeal.Blocks
open Idealize.ShloMosaic Idealize.ShloMosaic.TcCoe Idealize.SL.Sem

variable (m : (ℓ : Loc nD τ sig) → Buf (Elt Ideal) ℓ)

theorem tail_eq (c : Dev nD) : (Pipeline.afterTail₀ cfgs (dats m) 0 (V0 m) [hostOps1] c main_v19 : FVec Ideal S16384 .f32)
    = addf (shapeCast S16384 (outArr m c) shapeCasts_S16384x1_S16384)
        (broadcastInDim S16384 ![] bcast_S_S16384 (m ((c : Thread nD τ).loc main_arg8))) := by
  unfold Pipeline.afterTail₀
  show StableHlo.after hostOps1 _ (Proc.devRef .tc main_v19) = _
  after_results
  have h16 : Pipeline.withArrays (cfgs 0).spec c (V0 m c) (fun w => (dats m 0 c).arrAt w (cfgs 0).N) (Proc.devRef .tc main_v16)
      = outArr m c :=
    (Pipeline.withArrays_arr spec0 launch0.win.arr_inj c _ _ 4).trans (final m c)
  have h8 : Pipeline.withArrays (cfgs 0).spec c (V0 m c) (fun w => (dats m 0 c).arrAt w (cfgs 0).N) (Proc.devRef .tc main_arg8)
      = m ((c : Thread nD τ).loc main_arg8) :=
    (Pipeline.withArrays_of_ne _ c (V0 m c) _ main_arg8 (by exact (by decide : ∀ w, Pipeline.arrRef spec0 w ≠ main_arg8))).trans
      (V_main_arg8 m c)
  rw [h16, h8]
  rfl

end Cert.KernelIdeal.Tail

end
-- ==== Proof.TakeFacts.lean ====
/-
  Index arithmetic of a guarded row lookup. A lookup `table[i]` with a fill value first wraps a negative index
  (`i < 0 ↦ i + N`), then tests `0 ≤ i' ≤ N - 1`, and keeps the looked-up row where the test holds and the fill
  value elsewhere. For a word already in `[0, N)` the wrap changes nothing and the test holds; so when every index
  is in range the guard is all ones and the guarded lookup is the plain one.
-/
import Idealize.ShloMosaic.Lib.ReduceAll
import Idealize.ShloMosaic.Lib.ValueIdx
import Idealize.ShloMosaic.Lib.StableHlo.Predicate

namespace Cert.TakeFacts

open Idealize.ShloMosaic

/-- A word is a valid row number of a table of `N` rows: `0 ≤ w < N`, both read signed. -/
def InRange (N : Nat) (w : BitVec 32) : Prop :=
  IntOp.cmpi .sge w 0#32 = 1#1 ∧ IntOp.cmpi .slt w (BitVec.ofNat 32 N) = 1#1

/-- The wrap of a negative index: `w + N` when `w < 0`, else `w`. -/
def wrap (N : Nat) (w : BitVec 32) : BitVec 32 :=
  Scalar.select (IntOp.cmpi .slt w 0#32) (IntOp.addi w (BitVec.ofNat 32 N)) w

theorem toInt_zero : (0#32 : BitVec 32).toInt = 0 := by decide

/-- A valid row number is not negative, so the wrap leaves it alone. -/
theorem wrap_eq {N : Nat} {w : BitVec 32} (h : InRange N w) : wrap N w = w := by
  have h0 : 0 ≤ w.toInt := by have := IntOp.cmpi_sge.1 h.1; rwa [toInt_zero] at this
  have hneg : IntOp.cmpi .slt w 0#32 = 0#1 :=
    ValueIdx.eq_zero_of_ne_one fun hc => by have := IntOp.cmpi_slt.1 hc; rw [toInt_zero] at this; omega
  unfold wrap
  rw [hneg]
  exact ValueIdx.select_zero _ _

/-- The guard's bit at a valid row number: `0 ≤ wrap w` and `wrap w ≤ N - 1`. -/
theorem guard_eq_one {N L : Nat} (hL : L + 1 = N) (hN : N < 2 ^ 31) {w : BitVec 32} (h : InRange N w) :
    IntOp.andi (IntOp.cmpi .sge (wrap N w) 0#32) (IntOp.cmpi .sle (wrap N w) (BitVec.ofNat 32 L)) = 1#1 := by
  rw [wrap_eq h]
  have h1 : w.toInt < N := by
    have := IntOp.cmpi_slt.1 h.2
    rwa [StableHlo.Predicate.toInt_ofNat_small N hN] at this
  refine IntOp.andi_eq_one.2 ⟨h.1, IntOp.cmpi_sle.2 ?_⟩
  rw [StableHlo.Predicate.toInt_ofNat_small L (by omega)]
  omega

/-- A left fold by `and` from 1 over words that are all 1 is 1. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a]
    exact foldl_andi_ones f hf l

/-- A reduction by `and`, from 1, of a mask that is 1 everywhere is 1 everywhere. -/
theorem reduce_andi_ones {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  rw [Host.reduce_eq_foldl, hi]
  exact foldl_andi_ones x hx _

/-- Every element of a broadcast is an element of its operand. -/
theorem bcast_forall {α : Type} {s t : Shape} (dims : Fin s.rank → Fin t.rank) (h : s.BroadcastsInDim t dims)
    (x : s.Idx → α) (P : α → Prop) (hx : ∀ k, P (x k)) (j : t.Idx) : P (broadcastInDim t dims h x j) := by
  unfold broadcastInDim
  exact hx _

/-- A select on a mask that is 1 everywhere is its first operand. -/
theorem select_of_ones {α : Type} {t : Shape} (c : IVec t 1) (a b : t.Idx → α) (hc : ∀ j, c j = 1#1) : select c a b = a := by
  funext j
  rw [ValueIdx.select_apply, hc j]
  exact ValueIdx.select_one _ _

/-- Every element a gather returns is an element of its operand. -/
theorem gather_forall {α : Type} {s si t : Shape} {w : Nat} (d : GatherDims s si t) (x : s.Idx → α) (idx : IVec si w)
    (P : α → Prop) (hx : ∀ k, P (x k)) (j : t.Idx) : P (Host.gather d x idx j) := by
  unfold Host.gather
  exact hx _

end Cert.TakeFacts
-- ==== Proof.KernelHost.lean ====
/-
  The four arrays the kernel region is launched on, as the host operations before it compute them from the arguments:
  the looked-up rows of P and of Q, the [16384, 2] bias array (column 0: bu[user] + bi[item]; column 1: inv_sqrt[user]), and
  the history sum (the rows of Y at the user's history entries, summed over the 50 entries). Every lookup is guarded: it
  keeps the looked-up value where the wrapped index is in the table's row range and a fill value elsewhere. When every
  index is in range each guard is all ones, and the guarded lookup is the plain one.
-/
import proofs.«428425_j80925773791743_4_alg».proof.Proof.Gen.KernelIdeal.Frame
import proofs.«428425_j80925773791743_4_alg».proof.Proof.TakeFacts
import Idealize.ShloMosaic.Lib.StableHlo.Run

noncomputable section

namespace Cert.KernelIdeal.HostIn

open Cert.KernelIdeal Cert.KernelIdeal.Gen Cert.TakeFacts
open Idealize.ShloMosaic Idealize.ShloMosaic.TcCoe Idealize.SL.Sem

variable {F : FTy → Type} [FloatOps F]

/-! ## The operations, named -/

/-- Column 0 (user ids) and column 1 (item ids) of the id pairs. -/
def users (x : IVec S16384x2 32) : IVec S16384 32 :=
  shapeCast S16384 (extractStridedSlice S16384x1 ![0, 0] x slices_S16384x2_S16384x1_0_0) shapeCasts_S16384x1_S16384
def items (x : IVec S16384x2 32) : IVec S16384 32 :=
  shapeCast S16384 (extractStridedSlice S16384x1 ![0, 1] x slices_S16384x2_S16384x1_0_1) shapeCasts_S16384x1_S16384

/-- A vector of indices with the negative ones wrapped by `n`, as a column of start indices. -/
def startV (n : BitVec 32) (u : IVec S16384 32) : IVec S16384x1 32 :=
  broadcastInDim S16384x1 ![0] bcast_S16384_S16384x1_0
    (select (cmpi .slt u (broadcastInDim S16384 ![] bcast_S_S16384 (constantI S_ 32 0#32)))
      (addi u (broadcastInDim S16384 ![] bcast_S_S16384 (constantI S_ 32 n))) u)

/-- The guard of a lookup by such a column into a table whose last row is `l`. -/
def guardV (n l : BitVec 32) (u : IVec S16384 32) : IVec S16384 1 :=
  Host.reduce IntOp.andi
    (andi (cmpi .sge (startV n u) (broadcastInDim S16384x1 ![] bcast_S_S16384x1 (constantI S_ 32 0#32)))
      (cmpi .sle (startV n u) (broadcastInDim S16384x1 ![0, 1] bcast_S1x1_S16384x1_0_1
        (broadcastInDim S1x1 ![1] bcast_S1_S1x1_1 (constantI S1 32 l)))))
    (constantI S_ 1 1#1) reducesTo_S16384x1_S16384_d1 h_S_

/-- The same for the [16384, 50] array of history entries, wrapped by 20000. -/
def startH (h : IVec S16384x50 32) : IVec S16384x50x1 32 :=
  broadcastInDim S16384x50x1 ![0, 1] bcast_S16384x50_S16384x50x1_0_1
    (select (cmpi .slt h (broadcastInDim S16384x50 ![] bcast_S_S16384x50 (constantI S_ 32 0#32)))
      (addi h (broadcastInDim S16384x50 ![] bcast_S_S16384x50 (constantI S_ 32 20000#32))) h)

def guardH (h : IVec S16384x50 32) : IVec S16384x50 1 :=
  Host.reduce IntOp.andi
    (andi (cmpi .sge (startH h) (broadcastInDim S16384x50x1 ![] bcast_S_S16384x50x1 (constantI S_ 32 0#32)))
      (cmpi .sle (startH h) (broadcastInDim S16384x50x1 ![0, 1, 2] bcast_S1x1x1_S16384x50x1_0_1_2
        (broadcastInDim S1x1x1 ![2] bcast_S1_S1x1x1_2 (constantI S1 32 19999#32)))))
    (constantI S_ 1 1#1) reducesTo_S16384x50x1_S16384x50_d2 h_S_

/-- The plain lookups. -/
def rowsP (P : FVec F S100000x64 .f32) (u : IVec S16384 32) : FVec F S16384x64 .f32 :=
  Host.gather gather_S100000x64_S16384x1_S16384x64_1_0_n_n_0_1_164 P (startV 100000#32 u)
def rowsQ (Q : FVec F S20000x64 .f32) (v : IVec S16384 32) : FVec F S16384x64 .f32 :=
  Host.gather gather_S20000x64_S16384x1_S16384x64_1_0_n_n_0_1_164 Q (startV 20000#32 v)
def atUser (b : FVec F S100000 .f32) (u : IVec S16384 32) : FVec F S16384 .f32 :=
  Host.gather gather_S100000_S16384x1_S16384_n_0_n_n_0_1_1 b (startV 100000#32 u)
def atItem (b : FVec F S20000 .f32) (v : IVec S16384 32) : FVec F S16384 .f32 :=
  Host.gather gather_S20000_S16384x1_S16384_n_0_n_n_0_1_1 b (startV 20000#32 v)
def histOf (hist : IVec S100000x50 32) (u : IVec S16384 32) : IVec S16384x50 32 :=
  Host.gather gather_S100000x50_S16384x1_S16384x50_1_0_n_n_0_1_150 hist (startV 100000#32 u)
def rowsY (Y : FVec F S20000x64 .f32) (h : IVec S16384x50 32) : FVec F S16384x50x64 .f32 :=
  Host.gather gather_S20000x64_S16384x50x1_S16384x50x64_2_0_n_n_0_2_164 Y (startH h)

/-- The guarded lookups, as printed. -/
def gRowsP (P : FVec F S100000x64 .f32) (u : IVec S16384 32) : FVec F S16384x64 .f32 :=
  select (broadcastInDim S16384x64 ![0] bcast_S16384_S16384x64_0 (guardV 100000#32 99999#32 u)) (rowsP P u)
    (broadcastInDim S16384x64 ![] bcast_S_S16384x64 (constant (F := F) S_ .f32 0x7FC00000#32))
def gRowsQ (Q : FVec F S20000x64 .f32) (v : IVec S16384 32) : FVec F S16384x64 .f32 :=
  select (broadcastInDim S16384x64 ![0] bcast_S16384_S16384x64_0 (guardV 20000#32 19999#32 v)) (rowsQ Q v)
    (broadcastInDim S16384x64 ![] bcast_S_S16384x64 (constant (F := F) S_ .f32 0x7FC00000#32))
def gAtUser (b : FVec F S100000 .f32) (u : IVec S16384 32) : FVec F S16384 .f32 :=
  select (guardV 100000#32 99999#32 u) (atUser b u)
    (broadcastInDim S16384 ![] bcast_S_S16384 (constant (F := F) S_ .f32 0x7FC00000#32))
def gAtItem (b : FVec F S20000 .f32) (v : IVec S16384 32) : FVec F S16384 .f32 :=
  select (guardV 20000#32 19999#32 v) (atItem b v)
    (broadcastInDim S16384 ![] bcast_S_S16384 (constant (F := F) S_ .f32 0x7FC00000#32))
def gHistOf (hist : IVec S100000x50 32) (u : IVec S16384 32) : IVec S16384x50 32 :=
  select (broadcastInDim S16384x50 ![0] bcast_S16384_S16384x50_0 (guardV 100000#32 99999#32 u)) (histOf hist u)
    (broadcastInDim S16384x50 ![] bcast_S_S16384x50 (constantI S_ 32 2147483648#32))
def gRowsY (Y : FVec F S20000x64 .f32) (h : IVec S16384x50 32) : FVec F S16384x50x64 .f32 :=
  select (broadcastInDim S16384x50x64 ![0, 1] bcast_S16384x50_S16384x50x64_0_1 (guardH h)) (rowsY Y h)
    (broadcastInDim S16384x50x64 ![] bcast_S_S16384x50x64 (constant (F := F) S_ .f32 0x7FC00000#32))

/-- The bias array from its two columns, and the history sum from the looked-up rows. -/
def biasOf (s inv : FVec F S16384 .f32) : FVec F S16384x2 .f32 :=
  concatenate S16384x2 1 [⟨S16384x1, broadcastInDim S16384x1 ![0] bcast_S16384_S16384x1_0 s⟩,
    ⟨S16384x1, broadcastInDim S16384x1 ![0] bcast_S16384_S16384x1_0 inv⟩] concatenates_S16384x1_S16384x1_S16384x2_d1
def sumH (y : FVec F S16384x50x64 .f32) : FVec F S16384x64 .f32 :=
  Host.reduceAdd y (constant (F := F) S_ .f32 0x00000000#32) reducesTo_S16384x50x64_S16384x64_d1 h_S_

/-! ## With every index in range the guards are all ones -/

theorem guardV_ones {N L : Nat} (hL : L + 1 = N) (hN : N < 2 ^ 31) (u : IVec S16384 32) (hu : ∀ j, InRange N (u j))
    (k : S16384.Idx) : guardV (BitVec.ofNat 32 N) (BitVec.ofNat 32 L) u k = 1#1 :=
  reduce_andi_ones _ _ _ _ (fun _ => guard_eq_one hL hN (hu _)) (fun _ => rfl) k

theorem guardH_ones (h : IVec S16384x50 32) (hh : ∀ j, InRange 20000 (h j)) (k : S16384x50.Idx) : guardH h k = 1#1 :=
  reduce_andi_ones _ _ _ _ (fun _ => guard_eq_one (N := 20000) (L := 19999) rfl (by decide) (hh _)) (fun _ => rfl) k

/-! ## So each guarded lookup is the plain one -/

theorem gRowsP_eq (P : FVec F S100000x64 .f32) (u : IVec S16384 32) (hu : ∀ j, InRange 100000 (u j)) : gRowsP P u = rowsP P u :=
  select_of_ones _ _ _ fun j => bcast_forall _ _ _ (· = 1#1) (guardV_ones (N := 100000) (L := 99999) rfl (by decide) u hu) j
theorem gRowsQ_eq (Q : FVec F S20000x64 .f32) (v : IVec S16384 32) (hv : ∀ j, InRange 20000 (v j)) : gRowsQ Q v = rowsQ Q v :=
  select_of_ones _ _ _ fun j => bcast_forall _ _ _ (· = 1#1) (guardV_ones (N := 20000) (L := 19999) rfl (by decide) v hv) j
theorem gAtUser_eq (b : FVec F S100000 .f32) (u : IVec S16384 32) (hu : ∀ j, InRange 100000 (u j)) : gAtUser b u = atUser b u :=
  select_of_ones _ _ _ (guardV_ones (N := 100000) (L := 99999) rfl (by decide) u hu)
theorem gAtItem_eq (b : FVec F S20000 .f32) (v : IVec S16384 32) (hv : ∀ j, InRange 20000 (v j)) : gAtItem b v = atItem b v :=
  select_of_ones _ _ _ (guardV_ones (N := 20000) (L := 19999) rfl (by decide) v hv)
theorem gHistOf_eq (hist : IVec S100000x50 32) (u : IVec S16384 32) (hu : ∀ j, InRange 100000 (u j)) : gHistOf hist u = histOf hist u :=
  select_of_ones _ _ _ fun j => bcast_forall _ _ _ (· = 1#1) (guardV_ones (N := 100000) (L := 99999) rfl (by decide) u hu) j
theorem gRowsY_eq (Y : FVec F S20000x64 .f32) (h : IVec S16384x50 32) (hh : ∀ j, InRange 20000 (h j)) : gRowsY Y h = rowsY Y h :=
  select_of_ones _ _ _ fun j => bcast_forall _ _ _ (· = 1#1) (guardH_ones h hh) j

/-- Every looked-up history entry is an entry of the history table, so it is in range when they all are. -/
theorem histOf_inRange (hist : IVec S100000x50 32) (u : IVec S16384 32) (hh : ∀ i, InRange 20000 (hist i)) (j : S16384x50.Idx) :
    InRange 20000 (histOf hist u j) :=
  gather_forall _ _ _ (InRange 20000) hh j

end Cert.KernelIdeal.HostIn

end
-- ==== Proof.EntryP.lean ====
/-
  The looked-up rows of P as the region finds them: the host operations' composed term of the arguments.
-/
import proofs.«428425_j80925773791743_4_alg».proof.Proof.KernelHost

noncomputable section

namespace Cert.KernelIdeal.EntryP

open Cert.KernelIdeal Cert.KernelIdeal.Gen Cert.KernelIdeal.HostIn Cert.TakeFacts
open Idealize.ShloMosaic Idealize.ShloMosaic.TcCoe Idealize.SL.Sem

variable {F : FTy → Type} [FloatOps F]
variable (m : (ℓ : Loc nD τ sig) → Buf (Elt F) ℓ)

set_option maxHeartbeats 8000000 in
theorem entry_pu (c : Dev nD) : (V m c main_v4 : FVec F S16384x64 .f32)
    = gRowsP (m ((c : Thread nD τ).loc main_arg2)) (users (m ((c : Thread nD τ).loc main_arg0))) := by
  dsimp only [V, V0]
  simp only [hostOps0, hostOps0_1, hostOps0_2, hostOps0_3, hostOps0_4, hostOps0_5, hostOps0_6, hostOps0_7, hostOps0_8, hostOps0_9,
    List.flatten_cons, List.flatten_nil, List.append_nil, List.cons_append, List.nil_append]
  after_results_simp
  simp only [cast_eq]
  rfl

end Cert.KernelIdeal.EntryP

end
-- ==== Proof.EntryQ.lean ====
/-
  The looked-up rows of Q as the region finds them: the host operations' composed term of the arguments.
-/
import proofs.«428425_j80925773791743_4_alg».proof.Proof.KernelHost

noncomputable section

namespace Cert.KernelIdeal.EntryQ

open Cert.KernelIdeal Cert.KernelIdeal.Gen Cert.KernelIdeal.HostIn Cert.TakeFacts
open Idealize.ShloMosaic Idealize.ShloMosaic.TcCoe Idealize.SL.Sem

variable {F : FTy → Type} [FloatOps F]
variable (m : (ℓ : Loc nD τ sig) → Buf (Elt F) ℓ)

set_option maxHeartbeats 8000000 in
theorem entry_qi (c : Dev nD) : (V m c main_v5 : FVec F S16384x64 .f32)
    = gRowsQ (m ((c : Thread nD τ).loc main_arg3)) (items (m ((c : Thread nD τ).loc main_arg0))) := by
  dsimp only [V, V0]
  simp only [hostOps0, hostOps0_1, hostOps0_2, hostOps0_3, hostOps0_4, hostOps0_5, hostOps0_6, hostOps0_7, hostOps0_8, hostOps0_9,
    List.flatten_cons, List.flatten_nil, List.append_nil, List.cons_append, List.nil_append]
  after_results_simp
  simp only [cast_eq]
  rfl

end Cert.KernelIdeal.EntryQ

end
-- ==== Proof.HostSplit.lean ====
/-
  The host operations before the region, cut in three: the first six stretches (the id columns and the five
  table lookups that feed the bias array), the stretch that assembles the bias array, and the last three (the history
  lookup, the lookup of Y's rows, their sum). Running the whole line is running the parts in turn.
-/
import proofs.«428425_j80925773791743_4_alg».proof.Proof.KernelHost

noncomputable section

namespace Cert.KernelIdeal.Split

open Cert.KernelIdeal Cert.KernelIdeal.Gen Cert.KernelIdeal.HostIn Cert.TakeFacts
open Idealize.ShloMosaic Idealize.ShloMosaic.TcCoe Idealize.SL.Sem

variable {F : FTy → Type} [FloatOps F]
variable (m : (ℓ : Loc nD τ sig) → Buf (Elt F) ℓ)

/-- Running a line of host operations that is two lines joined is running the first, then the second. -/
theorem after_append {Val : EltTy → Type} (l₁ l₂ : List (HloOp τ sig Val)) (U : Valuation τ sig Val) :
    StableHlo.after (l₁ ++ l₂) U = StableHlo.after l₂ (StableHlo.after l₁ U) := by
  induction l₁ generalizing U with
  | nil => rfl
  | cons op l ih => exact ih _

/-- The buffers after the first six stretches, and after the seventh. -/
def pre6 (c : Dev nD) : Valuation τ sig (Elt F) :=
  StableHlo.after (List.flatten [hostOps0, hostOps0_1, hostOps0_2, hostOps0_3, hostOps0_4, hostOps0_5]) (fun b => m (c, b))
def pre7 (c : Dev nD) : Valuation τ sig (Elt F) := StableHlo.after hostOps0_6 (pre6 m c)

theorem V0_split (c : Dev nD) : V0 m c = StableHlo.after (hostOps0_7 ++ (hostOps0_8 ++ hostOps0_9)) (pre7 m c) := by
  show StableHlo.after (List.flatten [hostOps0, hostOps0_1, hostOps0_2, hostOps0_3, hostOps0_4, hostOps0_5, hostOps0_6, hostOps0_7,
    hostOps0_8, hostOps0_9]) (fun b => m (c, b)) = _
  unfold pre7 pre6
  simp only [List.flatten_cons, List.flatten_nil, List.append_nil, after_append]

end Cert.KernelIdeal.Split

end
-- ==== Proof.EntryB.lean ====
/-
  The bias array as the region finds it: column 0 the two looked-up biases added, column 1 the looked-up scale.
  The three lookups are read off the first six stretches of host operations, the assembly off the seventh, and the
  last three stretches do not write the array.
-/
import proofs.«428425_j80925773791743_4_alg».proof.Proof.HostSplit

noncomputable section

namespace Cert.KernelIdeal.EntryB

open Cert.KernelIdeal Cert.KernelIdeal.Gen Cert.KernelIdeal.HostIn Cert.KernelIdeal.Split Cert.TakeFacts
open Idealize.ShloMosaic Idealize.ShloMosaic.TcCoe Idealize.SL.Sem

variable {F : FTy → Type} [FloatOps F]
variable (m : (ℓ : Loc nD τ sig) → Buf (Elt F) ℓ)

/-- The last three stretches leave the bias array alone. -/
theorem kept12 (U : Valuation τ sig (Elt F)) :
    StableHlo.after (hostOps0_7 ++ (hostOps0_8 ++ hostOps0_9)) U (Proc.devRef .tc main_v12) = U (Proc.devRef .tc main_v12) :=
  StableHlo.after_of_forall_not_mem (b := Proc.devRef .tc main_v12) _ _ (List.forall_iff_forall_mem.mp (by
    simp only [hostOps0_7, hostOps0_8, hostOps0_9, List.flatten_cons, List.flatten_nil, List.append_nil, List.cons_append, List.nil_append,
      List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

/-- The seventh stretch over any earlier contents: the two biases added, each column laid out, the two joined. -/
theorem stage7 (U : Valuation τ sig (Elt F)) :
    (StableHlo.after hostOps0_6 U (Proc.devRef .tc main_v12) : FVec F S16384x2 .f32)
      = biasOf (addf (U (Proc.devRef .tc main_v6)) (U (Proc.devRef .tc main_v7))) (U (Proc.devRef .tc main_v8)) := by
  after_results
  rfl

set_option maxHeartbeats 8000000 in
theorem pre6_v6 (c : Dev nD) : (pre6 m c (Proc.devRef .tc main_v6) : FVec F S16384 .f32)
    = gAtUser (m ((c : Thread nD τ).loc main_arg4)) (users (m ((c : Thread nD τ).loc main_arg0))) := by
  unfold pre6
  simp only [hostOps0, hostOps0_1, hostOps0_2, hostOps0_3, hostOps0_4, hostOps0_5,
    List.flatten_cons, List.flatten_nil, List.append_nil, List.cons_append, List.nil_append]
  after_results_simp
  try simp only [cast_eq]
  rfl

set_option maxHeartbeats 8000000 in
theorem pre6_v7 (c : Dev nD) : (pre6 m c (Proc.devRef .tc main_v7) : FVec F S16384 .f32)
    = gAtItem (m ((c : Thread nD τ).loc main_arg5)) (items (m ((c : Thread nD τ).loc main_arg0))) := by
  unfold pre6
  simp only [hostOps0, hostOps0_1, hostOps0_2, hostOps0_3, hostOps0_4, hostOps0_5,
    List.flatten_cons, List.flatten_nil, List.append_nil, List.cons_append, List.nil_append]
  after_results_simp
  try simp only [cast_eq]
  rfl

set_option maxHeartbeats 8000000 in
theorem pre6_v8 (c : Dev nD) : (pre6 m c (Proc.devRef .tc main_v8) : FVec F S16384 .f32)
    = gAtUser (m ((c : Thread nD τ).loc main_arg7)) (users (m ((c : Thread nD τ).loc main_arg0))) := by
  unfold pre6
  simp only [hostOps0, hostOps0_1, hostOps0_2, hostOps0_3, hostOps0_4, hostOps0_5,
    List.flatten_cons, List.flatten_nil, List.append_nil, List.cons_append, List.nil_append]
  after_results_simp
  try simp only [cast_eq]
  rfl

theorem entry_bias (c : Dev nD) : (V m c main_v12 : FVec F S16384x2 .f32)
    = biasOf (addf (gAtUser (m ((c : Thread nD τ).loc main_arg4)) (users (m ((c : Thread nD τ).loc main_arg0))))
        (gAtItem (m ((c : Thread nD τ).loc main_arg5)) (items (m ((c : Thread nD τ).loc main_arg0)))))
      (gAtUser (m ((c : Thread nD τ).loc main_arg7)) (users (m ((c : Thread nD τ).loc main_arg0)))) := by
  show V0 m c (Proc.devRef .tc main_v12) = _
  rw [V0_split, kept12]
  unfold pre7
  rw [stage7, pre6_v6, pre6_v7, pre6_v8]

end Cert.KernelIdeal.EntryB

end
-- ==== Proof.EntryY1.lean ====
/-
  The last three stretches of host operations before the region, each read over whatever the earlier ones left:
  the history lookup by the user ids, then the lookup of Y's rows by the history entries and the sum over the entries.
-/
import proofs.«428425_j80925773791743_4_alg».proof.Proof.HostSplit

noncomputable section

namespace Cert.KernelIdeal.EntryY1

open Cert.KernelIdeal Cert.KernelIdeal.Gen Cert.KernelIdeal.HostIn Cert.KernelIdeal.Split Cert.TakeFacts
open Idealize.ShloMosaic Idealize.ShloMosaic.TcCoe Idealize.SL.Sem

variable {F : FTy → Type} [FloatOps F]
variable (m : (ℓ : Loc nD τ sig) → Buf (Elt F) ℓ)

set_option maxHeartbeats 8000000 in
/-- The eighth stretch over any earlier contents `U`: the history lookup by the user ids. -/
theorem stage8 (U : Valuation τ sig (Elt F)) :
    (StableHlo.after hostOps0_7 U (Proc.devRef .tc main_v13) : IVec S16384x50 32)
      = gHistOf (U (Proc.devRef .tc main_arg1)) (U (Proc.devRef .tc main_v1)) := by
  simp only [hostOps0_7]
  after_results_simp
  try simp only [cast_eq]
  rfl

/-- It does not write the table Y. -/
theorem stage8_arg6 (U : Valuation τ sig (Elt F)) :
    StableHlo.after hostOps0_7 U (Proc.devRef .tc main_arg6) = U (Proc.devRef .tc main_arg6) :=
  StableHlo.after_of_forall_not_mem (b := Proc.devRef .tc main_arg6) _ _ (List.forall_iff_forall_mem.mp (by
    simp only [hostOps0_7, List.flatten_cons, List.flatten_nil, List.append_nil, List.cons_append, List.nil_append,
      List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

end Cert.KernelIdeal.EntryY1

end
-- ==== Proof.EntryY3.lean ====
/-
  The last two stretches of host operations before the region, read over whatever the earlier ones left: the lookup
  of Y's rows by the history entries — itself read in three parts: the column of wrapped start indices, the guard over
  that column, and the guarded lookup — and the sum over the entries.
-/
import proofs.«428425_j80925773791743_4_alg».proof.Proof.HostSplit

noncomputable section

namespace Cert.KernelIdeal.EntryY3

open Cert.KernelIdeal Cert.KernelIdeal.Gen Cert.KernelIdeal.HostIn Cert.KernelIdeal.Split Cert.TakeFacts
open Idealize.ShloMosaic Idealize.ShloMosaic.TcCoe Idealize.SL.Sem

variable {F : FTy → Type} [FloatOps F]
variable (m : (ℓ : Loc nD τ sig) → Buf (Elt F) ℓ)

/-- The guard over a column of start indices into Y's 20000 rows. -/
def guardS (s : IVec S16384x50x1 32) : IVec S16384x50 1 :=
  Host.reduce IntOp.andi
    (andi (cmpi .sge s (broadcastInDim S16384x50x1 ![] bcast_S_S16384x50x1 (constantI S_ 32 0#32)))
      (cmpi .sle s (broadcastInDim S16384x50x1 ![0, 1, 2] bcast_S1x1x1_S16384x50x1_0_1_2
        (broadcastInDim S1x1x1 ![2] bcast_S1_S1x1x1_2 (constantI S1 32 19999#32)))))
    (constantI S_ 1 1#1) reducesTo_S16384x50x1_S16384x50_d2 h_S_

/-- The stretch is its first 8 operations, the next 10, and the last 5. -/
theorem ops8_split : (hostOps0_8 : List (HloOp τ sig (Elt F)))
    = hostOps0_8.take 8 ++ ((hostOps0_8.drop 8).take 10 ++ hostOps0_8.drop 18) := rfl

set_option maxHeartbeats 8000000 in
/-- The first 8: the history entries wrapped, as a column of start indices. -/
theorem part_a (U : Valuation τ sig (Elt F)) :
    (StableHlo.after (hostOps0_8.take 8) U (Proc.devRef .tc main_call6_v5) : IVec S16384x50x1 32)
      = startH (U (Proc.devRef .tc main_v13)) := by
  simp only [hostOps0_8, List.take]
  after_results_simp
  try simp only [cast_eq]
  try rfl

theorem part_a_arg6 (U : Valuation τ sig (Elt F)) :
    StableHlo.after (hostOps0_8.take 8) U (Proc.devRef .tc main_arg6) = U (Proc.devRef .tc main_arg6) :=
  StableHlo.after_of_forall_not_mem (b := Proc.devRef .tc main_arg6) _ _ (List.forall_iff_forall_mem.mp (by
    simp only [hostOps0_8, List.take, List.append_nil, List.cons_append, List.nil_append,
      List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

set_option maxHeartbeats 8000000 in
/-- The next 10: the guard over that column. -/
theorem part_b (U : Valuation τ sig (Elt F)) :
    (StableHlo.after ((hostOps0_8.drop 8).take 10) U (Proc.devRef .tc main_call6_v12) : IVec S16384x50 1)
      = guardS (U (Proc.devRef .tc main_call6_v5)) := by
  simp only [hostOps0_8, List.take, List.drop]
  after_results_simp
  try simp only [cast_eq]
  try rfl

theorem part_b_v5 (U : Valuation τ sig (Elt F)) :
    StableHlo.after ((hostOps0_8.drop 8).take 10) U (Proc.devRef .tc main_call6_v5) = U (Proc.devRef .tc main_call6_v5) :=
  StableHlo.after_of_forall_not_mem (b := Proc.devRef .tc main_call6_v5) _ _ (List.forall_iff_forall_mem.mp (by
    simp only [hostOps0_8, List.take, List.drop, List.append_nil, List.cons_append, List.nil_append,
      List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem part_b_arg6 (U : Valuation τ sig (Elt F)) :
    StableHlo.after ((hostOps0_8.drop 8).take 10) U (Proc.devRef .tc main_arg6) = U (Proc.devRef .tc main_arg6) :=
  StableHlo.after_of_forall_not_mem (b := Proc.devRef .tc main_arg6) _ _ (List.forall_iff_forall_mem.mp (by
    simp only [hostOps0_8, List.take, List.drop, List.append_nil, List.cons_append, List.nil_append,
      List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

set_option maxHeartbeats 8000000 in
/-- The last 5: Y's rows at the start indices, kept where the guard holds. -/
theorem part_c (U : Valuation τ sig (Elt F)) :
    (StableHlo.after (hostOps0_8.drop 18) U (Proc.devRef .tc main_v14) : FVec F S16384x50x64 .f32)
      = select (broadcastInDim S16384x50x64 ![0, 1] bcast_S16384x50_S16384x50x64_0_1 (U (Proc.devRef .tc main_call6_v12)))
          (Host.gather gather_S20000x64_S16384x50x1_S16384x50x64_2_0_n_n_0_2_164 (U (Proc.devRef .tc main_arg6))
            (U (Proc.devRef .tc main_call6_v5)))
          (broadcastInDim S16384x50x64 ![] bcast_S_S16384x50x64 (constant (F := F) S_ .f32 0x7FC00000#32)) := by
  simp only [hostOps0_8, List.drop]
  after_results_simp
  try simp only [cast_eq]
  try rfl

/-- The whole lookup of Y's rows, over any earlier contents. -/
theorem stage9 (U : Valuation τ sig (Elt F)) :
    (StableHlo.after hostOps0_8 U (Proc.devRef .tc main_v14) : FVec F S16384x50x64 .f32)
      = gRowsY (U (Proc.devRef .tc main_arg6)) (U (Proc.devRef .tc main_v13)) := by
  rw [ops8_split, after_append, after_append, part_c, part_b, part_b_v5, part_b_arg6, part_a, part_a_arg6]
  rfl

/-- The sum over the history entries. -/
theorem stage10 (U : Valuation τ sig (Elt F)) :
    (StableHlo.after hostOps0_9 U (Proc.devRef .tc main_v15) : FVec F S16384x64 .f32) = sumH (U (Proc.devRef .tc main_v14)) := by
  after_results
  rfl

/-- The last two stretches over any earlier contents `U`: the lookup of Y's rows by the history entries, and their sum. -/
theorem last2 (U : Valuation τ sig (Elt F)) :
    (StableHlo.after (hostOps0_8 ++ hostOps0_9) U (Proc.devRef .tc main_v15) : FVec F S16384x64 .f32)
      = sumH (gRowsY (U (Proc.devRef .tc main_arg6)) (U (Proc.devRef .tc main_v13))) := by
  rw [after_append, stage10, stage9]

end Cert.KernelIdeal.EntryY3

end
-- ==== Proof.EntryY2.lean ====
/-
  What the first seven stretches of host operations leave for the history lookup: the two tables untouched, and the
  user ids — the first column of the id pairs — in their buffer.
-/
import proofs.«428425_j80925773791743_4_alg».proof.Proof.HostSplit

noncomputable section

namespace Cert.KernelIdeal.EntryY2

open Cert.KernelIdeal Cert.KernelIdeal.Gen Cert.KernelIdeal.HostIn Cert.KernelIdeal.Split Cert.TakeFacts
open Idealize.ShloMosaic Idealize.ShloMosaic.TcCoe Idealize.SL.Sem

variable {F : FTy → Type} [FloatOps F]
variable (m : (ℓ : Loc nD τ sig) → Buf (Elt F) ℓ)

/-- The first seven stretches write neither table. -/
theorem pre7_arg6 (c : Dev nD) : pre7 m c (Proc.devRef .tc main_arg6) = m ((c : Thread nD τ).loc main_arg6) := by
  unfold pre7 pre6
  rw [← after_append]
  exact
    StableHlo.after_of_forall_not_mem (b := Proc.devRef .tc main_arg6) _ _ (List.forall_iff_forall_mem.mp (by
    simp only [hostOps0, hostOps0_1, hostOps0_2, hostOps0_3, hostOps0_4, hostOps0_5, hostOps0_6, List.flatten_cons, List.flatten_nil, List.append_nil, List.cons_append, List.nil_append,
      List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem pre7_arg1 (c : Dev nD) : pre7 m c (Proc.devRef .tc main_arg1) = m ((c : Thread nD τ).loc main_arg1) := by
  unfold pre7 pre6
  rw [← after_append]
  exact
    StableHlo.after_of_forall_not_mem (b := Proc.devRef .tc main_arg1) _ _ (List.forall_iff_forall_mem.mp (by
    simp only [hostOps0, hostOps0_1, hostOps0_2, hostOps0_3, hostOps0_4, hostOps0_5, hostOps0_6, List.flatten_cons, List.flatten_nil, List.append_nil, List.cons_append, List.nil_append,
      List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

set_option maxHeartbeats 8000000 in
/-- They leave the user ids in `main_v1`: the first column of the id pairs. -/
theorem pre7_v1 (c : Dev nD) : (pre7 m c (Proc.devRef .tc main_v1) : IVec S16384 32) = users (m ((c : Thread nD τ).loc main_arg0)) := by
  unfold pre7 pre6
  rw [← after_append]
  simp only [hostOps0, hostOps0_1, hostOps0_2, hostOps0_3, hostOps0_4, hostOps0_5, hostOps0_6,
    List.flatten_cons, List.flatten_nil, List.append_nil, List.cons_append, List.nil_append]
  after_results_simp
  try simp only [cast_eq]
  rfl

end Cert.KernelIdeal.EntryY2

end
-- ==== Proof.EntryY.lean ====
/-
  The history sum as the region finds it: the rows of Y at the user's looked-up history entries, summed over the
  entries — the last three stretches of host operations read over what the first seven leave.
-/
import proofs.«428425_j80925773791743_4_alg».proof.Proof.EntryY1
import proofs.«428425_j80925773791743_4_alg».proof.Proof.EntryY3
import proofs.«428425_j80925773791743_4_alg».proof.Proof.EntryY2

noncomputable section

namespace Cert.KernelIdeal.EntryY

open Cert.KernelIdeal Cert.KernelIdeal.Gen Cert.KernelIdeal.HostIn Cert.KernelIdeal.Split Cert.KernelIdeal.EntryY1 Cert.KernelIdeal.EntryY3 Cert.KernelIdeal.EntryY2 Cert.TakeFacts
open Idealize.ShloMosaic Idealize.ShloMosaic.TcCoe Idealize.SL.Sem

variable {F : FTy → Type} [FloatOps F]
variable (m : (ℓ : Loc nD τ sig) → Buf (Elt F) ℓ)

theorem entry_ys (c : Dev nD) : (V m c main_v15 : FVec F S16384x64 .f32)
    = sumH (gRowsY (m ((c : Thread nD τ).loc main_arg6))
        (gHistOf (m ((c : Thread nD τ).loc main_arg1)) (users (m ((c : Thread nD τ).loc main_arg0))))) := by
  show V0 m c (Proc.devRef .tc main_v15) = _
  rw [V0_split, after_append, last2, stage8, stage8_arg6, pre7_arg6, pre7_arg1, pre7_v1]

end Cert.KernelIdeal.EntryY

end
-- ==== Proof.KernelEntry.lean ====
/-
  The contents of the four arrays the region stages, when it is entered, with every index in range (the
  precondition): the guards drop out of the host operations' composed terms, and each array is a plain lookup.
-/
import proofs.«428425_j80925773791743_4_alg».proof.Proof.EntryP
import proofs.«428425_j80925773791743_4_alg».proof.Proof.EntryQ
import proofs.«428425_j80925773791743_4_alg».proof.Proof.EntryB
import proofs.«428425_j80925773791743_4_alg».proof.Proof.EntryY

noncomputable section

namespace Cert.KernelIdeal.Entry

open Cert.KernelIdeal Cert.KernelIdeal.Gen Cert.KernelIdeal.HostIn Cert.TakeFacts
open Cert.KernelIdeal.EntryP Cert.KernelIdeal.EntryQ Cert.KernelIdeal.EntryB Cert.KernelIdeal.EntryY
open Idealize.ShloMosaic Idealize.ShloMosaic.TcCoe Idealize.SL.Sem

variable {F : FTy → Type} [FloatOps F]
variable (m : (ℓ : Loc nD τ sig) → Buf (Elt F) ℓ)

/-! ## With the ids and history entries in range -/

section InRange

variable (c : Dev nD)
variable (hu : ∀ j, InRange 100000 (users (m ((c : Thread nD τ).loc main_arg0)) j))
variable (hv : ∀ j, InRange 20000 (items (m ((c : Thread nD τ).loc main_arg0)) j))
variable (hh : ∀ i, InRange 20000 ((m ((c : Thread nD τ).loc main_arg1) : IVec S100000x50 32) i))

include hu in
theorem pu_eq : (V m c main_v4 : FVec F S16384x64 .f32)
    = rowsP (m ((c : Thread nD τ).loc main_arg2)) (users (m ((c : Thread nD τ).loc main_arg0))) :=
  (entry_pu m c).trans (gRowsP_eq _ _ hu)

include hv in
theorem qi_eq : (V m c main_v5 : FVec F S16384x64 .f32)
    = rowsQ (m ((c : Thread nD τ).loc main_arg3)) (items (m ((c : Thread nD τ).loc main_arg0))) :=
  (entry_qi m c).trans (gRowsQ_eq _ _ hv)

include hu hv in
theorem bias_eq : (V m c main_v12 : FVec F S16384x2 .f32)
    = biasOf (addf (atUser (m ((c : Thread nD τ).loc main_arg4)) (users (m ((c : Thread nD τ).loc main_arg0))))
        (atItem (m ((c : Thread nD τ).loc main_arg5)) (items (m ((c : Thread nD τ).loc main_arg0)))))
      (atUser (m ((c : Thread nD τ).loc main_arg7)) (users (m ((c : Thread nD τ).loc main_arg0)))) := by
  rw [entry_bias, gAtUser_eq _ _ hu, gAtItem_eq _ _ hv, gAtUser_eq _ _ hu]

include hu hh in
theorem ys_eq : (V m c main_v15 : FVec F S16384x64 .f32)
    = sumH (rowsY (m ((c : Thread nD τ).loc main_arg6))
        (histOf (m ((c : Thread nD τ).loc main_arg1)) (users (m ((c : Thread nD τ).loc main_arg0))))) := by
  rw [entry_ys, gHistOf_eq _ _ hu, gRowsY_eq _ _ (histOf_inRange _ _ hh)]

end InRange

end Cert.KernelIdeal.Entry

end
-- ==== Proof.Spec.lean ====
/-
  The prediction both programs compute, for batch row `b`:
      bu[u] + bi[i] + Σ_f (P[u, f] + inv[u] · ysum[b, f]) · Q[i, f] + mu,
  stated over the six looked-up arrays (rows of P, Q and the summed history embeddings, and the three looked-up
  vectors). The two programs add the four summands in different orders; on the extended reals addition is
  commutative and associative, so every order is the same number — no finiteness is needed.
-/
import Idealize.ShloMosaic.PureOps.Ideal
import Idealize.ShloMosaic.Lib.ValueIdx

noncomputable section

open scoped BigOperators

namespace Cert.Spec

open Idealize.ShloMosaic Idealize.ShloMosaic.ValueIdx

abbrev Rows : Shape := ⟨2, ![16384, 64]⟩
abbrev Batch : Shape := ⟨1, ![16384]⟩

/-- The factor term of row `b`: the user's factors, shifted by the scaled history sum, dotted with the item's. -/
def dot (pu qi ys : Rows.Idx → EReal) (inv : Batch.Idx → EReal) (b : Fin 16384) : EReal :=
  ∑ f : Fin 64, (pu (ix2 b f) + inv (ix1 b) * ys (ix2 b f)) * qi (ix2 b f)

/-- The prediction, summed in the kernel's order: the two biases, then the factor term, then the global mean. -/
def pred (pu qi ys : Rows.Idx → EReal) (bu bi inv : Batch.Idx → EReal) (mu : EReal) : Batch.Idx → EReal :=
  fun b => (bu b + bi b + dot pu qi ys inv (b 0)) + mu

/-- The reference's order — the mean first, the factor term (a sum started from zero) last — is the same number. -/
theorem pred_ref_order (pu qi ys : Rows.Idx → EReal) (bu bi inv : Batch.Idx → EReal) (mu : EReal) (b : Batch.Idx) :
    mu + bu b + bi b + (0 + dot pu qi ys inv (b 0)) = pred pu qi ys bu bi inv mu b := by
  unfold pred
  rw [zero_add, add_comm (bu b + bi b + dot pu qi ys inv (b 0)) mu, ← add_assoc, ← add_assoc]

end Cert.Spec

end
-- ==== Proof.KernelResult.lean ====
/-
  The kernel's result, under the precondition, in the specification's form: at batch row `b` the region's output —
  the row's bias plus the factor term — plus the global mean, over the plain lookups the region's four arrays are.
-/
import proofs.«428425_j80925773791743_4_alg».proof.Proof.KernelTail
import proofs.«428425_j80925773791743_4_alg».proof.Proof.KernelEntry
import proofs.«428425_j80925773791743_4_alg».proof.Proof.Spec

noncomputable section

open scoped BigOperators

namespace Cert.KernelIdeal.Result

open Cert.KernelIdeal Cert.KernelIdeal.Gen Cert.KernelIdeal.HostIn Cert.KernelIdeal.Blocks Cert.KernelIdeal.Tail
open Cert.KernelIdeal.Entry Cert.TakeFacts
open Idealize.ShloMosaic Idealize.ShloMosaic.TcCoe Idealize.SL.Sem Idealize.ShloMosaic.ValueIdx Idealize.ShloMosaic.Pipeline

/-- A vector laid out as a [16384, 1] column reads, at row `p`, the vector at `p`. -/
theorem col_apply (s : FVec Ideal S16384 .f32) (p : Fin 16384) (q : Fin 1) :
    broadcastInDim S16384x1 ![0] bcast_S16384_S16384x1_0 s (ix2 p q) = s (ix1 p) := by
  unfold broadcastInDim
  refine congrArg s (funext fun a => ?_)
  match a with
  | ⟨0, _⟩ => rfl

/-- Column 0 of the bias array is its first operand, column 1 its second. -/
theorem biasOf_col0 (s inv : FVec Ideal S16384 .f32) (p : Fin 16384) : biasOf s inv (ix2 p (0 : Fin 2)) = s (ix1 p) := by
  unfold biasOf
  refine (concatenate_pair_apply_left (t := S16384x2) (s₁ := S16384x1) (s₂ := S16384x1) (1 : Fin 2)
    (broadcastInDim S16384x1 ![0] bcast_S16384_S16384x1_0 s) (broadcastInDim S16384x1 ![0] bcast_S16384_S16384x1_0 inv)
    concatenates_S16384x1_S16384x1_S16384x2_d1 (ix2 p (0 : Fin 2)) rfl (ix2 p (0 : Fin 1)) (fun b => ?_)).trans (col_apply s p 0)
  match b with
  | ⟨0, _⟩ => rfl
  | ⟨1, _⟩ => rfl

theorem biasOf_col1 (s inv : FVec Ideal S16384 .f32) (p : Fin 16384) : biasOf s inv (ix2 p (1 : Fin 2)) = inv (ix1 p) := by
  unfold biasOf
  refine (concatenate_pair_apply_right (t := S16384x2) (s₁ := S16384x1) (s₂ := S16384x1) (1 : Fin 2)
    (broadcastInDim S16384x1 ![0] bcast_S16384_S16384x1_0 s) (broadcastInDim S16384x1 ![0] bcast_S16384_S16384x1_0 inv)
    concatenates_S16384x1_S16384x1_S16384x2_d1 (ix2 p (1 : Fin 2)) rfl rfl (ix2 p (0 : Fin 1)) (fun b hb => ?_) rfl).trans
    (col_apply inv p 0)
  match b with
  | ⟨0, _⟩ => rfl
  | ⟨1, _⟩ => exact absurd rfl hb

variable (m : (ℓ : Loc nD τ sig) → Buf (Elt Ideal) ℓ)

/-- The specification's prediction over the kernel's plain lookups of the arguments. -/
abbrev predOf (c : Dev nD) : FVec Ideal S16384 .f32 :=
  Cert.Spec.pred
    (rowsP (F := Ideal) (m ((c : Thread nD τ).loc main_arg2)) (users (m ((c : Thread nD τ).loc main_arg0))))
    (rowsQ (F := Ideal) (m ((c : Thread nD τ).loc main_arg3)) (items (m ((c : Thread nD τ).loc main_arg0))))
    (sumH (F := Ideal) (rowsY (m ((c : Thread nD τ).loc main_arg6))
      (histOf (m ((c : Thread nD τ).loc main_arg1)) (users (m ((c : Thread nD τ).loc main_arg0))))))
    (atUser (F := Ideal) (m ((c : Thread nD τ).loc main_arg4)) (users (m ((c : Thread nD τ).loc main_arg0))))
    (atItem (F := Ideal) (m ((c : Thread nD τ).loc main_arg5)) (items (m ((c : Thread nD τ).loc main_arg0))))
    (atUser (F := Ideal) (m ((c : Thread nD τ).loc main_arg7)) (users (m ((c : Thread nD τ).loc main_arg0))))
    ((m ((c : Thread nD τ).loc main_arg8) : FVec Ideal S_ .f32) (fun a => a.elim0))

theorem result_eq (c : Dev nD)
    (hu : ∀ j, InRange 100000 (users (m ((c : Thread nD τ).loc main_arg0)) j))
    (hv : ∀ j, InRange 20000 (items (m ((c : Thread nD τ).loc main_arg0)) j))
    (hh : ∀ i, InRange 20000 ((m ((c : Thread nD τ).loc main_arg1) : IVec S100000x50 32) i)) :
    (Pipeline.afterTail₀ cfgs (dats m) 0 (V0 m) [hostOps1] c main_v19 : FVec Ideal S16384 .f32) = predOf m c := by
  rw [tail_eq]
  funext b
  obtain ⟨p, rfl⟩ : ∃ p : Fin 16384, b = ix1 p := ⟨b 0, eq_ix1 b⟩
  rw [addf_apply]
  rw [shapeCast_apply _ _ _ (ix2 p (0 : Fin 1)) (by
    rw [Shape.rowMajor_val_two, Shape.rowMajor_val_one]; show p.val * 1 + 0 = p.val; omega)]
  unfold outArr outRows predOf Cert.Spec.pred Cert.Spec.dot
  rw [pu_eq m c hu, qi_eq m c hv, ys_eq m c hu hh, bias_eq m c hu hv]
  rw [biasOf_col0, biasOf_col1]
  have hm : broadcastInDim S16384 ![] bcast_S_S16384 (m ((c : Thread nD τ).loc main_arg8) : FVec Ideal S_ .f32) (ix1 p)
      = (m ((c : Thread nD τ).loc main_arg8) : FVec Ideal S_ .f32) (fun a => a.elim0) := by
    unfold broadcastInDim
    exact congrArg _ (funext fun a => a.elim0)
  rw [hm]
  rfl

end Cert.KernelIdeal.Result

end
-- ==== Proof.KernelRun.lean ====
/-
  The kernel's run, read: every weakly fair execution ends with the result buffer at the specification's prediction
  over the kernel's plain lookups, and the nine arguments as launched — provided the ids and history entries are in
  range (the precondition).
-/
import proofs.«428425_j80925773791743_4_alg».proof.Proof.KernelResult

noncomputable section

namespace Cert.KernelIdeal.Run

open Cert.KernelIdeal Cert.KernelIdeal.Gen Cert.KernelIdeal.HostIn Cert.KernelIdeal.Result Cert.TakeFacts
open Idealize.ShloMosaic Idealize.ShloMosaic.TcCoe Idealize.SL.Sem

variable (m : (ℓ : Loc nD τ sig) → Buf (Elt Ideal) ℓ) (ρ : Dev nD → PrngReg)

theorem run
    (hu : ∀ (c : Dev nD) j, InRange 100000 (users (m ((c : Thread nD τ).loc main_arg0)) j))
    (hv : ∀ (c : Dev nD) j, InRange 20000 (items (m ((c : Thread nD τ).loc main_arg0)) j))
    (hh : ∀ (c : Dev nD) i, InRange 20000 ((m ((c : Thread nD τ).loc main_arg1) : IVec S100000x50 32) i)) :
    θ_run defs (onTc (τ := τ) (main (F := Ideal))) ⟨m, fun _ => 0, ρ⟩ (fun r => ∀ c : Dev nD,
      r.2.mem ((c.tc : Thread nD τ).loc main_v19) = predOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨((h c).2 main_v19 (Pipeline.mem_restRefs_of main_v19 (by decide) (by decide))).trans (result_eq m c (hu c) (hv c) (hh c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c)⟩)
    (run_main m ρ)

end Cert.KernelIdeal.Run

end
-- ==== Proof.RefValue.lean ====
/-
  The reference's result read at batch row `b`, one operation at a time: the global mean plus the user's bias plus the
  item's bias, plus the sum (started from zero) over the 64 factors of (P[u, f] + inv[u] · ysum[b, f]) · Q[i, f] — the
  prediction of the specification, over the reference's own six looked-up arrays.
-/
import proofs.«428425_j80925773791743_4_alg».proof.Proof.Gen.ReferenceIdeal.Read
import proofs.«428425_j80925773791743_4_alg».proof.Proof.Spec

noncomputable section

open scoped BigOperators

namespace Cert.ReferenceIdeal.RefValue

open Cert.ReferenceIdeal Cert.ReferenceIdeal.Gen Cert.ReferenceIdeal.Read
open Idealize.ShloMosaic Idealize.ShloMosaic.ValueIdx

theorem ref_eq (x0 : (⟨S16384x2, .i32⟩ : BufTy).Contents (Elt Ideal)) (x1 : (⟨S100000x50, .i32⟩ : BufTy).Contents (Elt Ideal))
    (x2 : (⟨S100000x64, .f32⟩ : BufTy).Contents (Elt Ideal)) (x3 : (⟨S20000x64, .f32⟩ : BufTy).Contents (Elt Ideal))
    (x4 : (⟨S100000, .f32⟩ : BufTy).Contents (Elt Ideal)) (x5 : (⟨S20000, .f32⟩ : BufTy).Contents (Elt Ideal))
    (x6 : (⟨S20000x64, .f32⟩ : BufTy).Contents (Elt Ideal)) (x7 : (⟨S100000, .f32⟩ : BufTy).Contents (Elt Ideal))
    (x8 : (⟨S_, .f32⟩ : BufTy).Contents (Elt Ideal)) :
    val_main_v63 (F := Ideal) x0 x1 x2 x3 x4 x5 x6 x7 x8
      = Cert.Spec.pred (val_main_v10 (F := Ideal) x0 x2) (val_main_v17 (F := Ideal) x0 x3) (val_main_v32 (F := Ideal) x0 x1 x6)
          (val_main_v50 (F := Ideal) x0 x4) (val_main_v59 (F := Ideal) x0 x5) (val_main_v39 (F := Ideal) x0 x7)
          (x8 (fun a => a.elim0)) := by
  funext i
  rw [← Cert.Spec.pred_ref_order]
  rw [val_main_v63_apply, val_main_v60_apply, val_main_v52_apply, val_main_v51_apply, val_main_v62_apply, val_main_cst_13_apply]
  simp only [Ideal.addf_def, Ideal.ofBits_def, Ideal.ofBits_zero_f32]
  refine congrArg (x8 (idx_main_v51 i) + val_main_v50 (F := Ideal) x0 x4 i + val_main_v59 (F := Ideal) x0 x5 i + ·) ?_
  refine congrArg ((0 : EReal) + ·) ?_
  unfold Cert.Spec.dot
  refine Finset.sum_congr rfl fun k _ => ?_
  rw [val_main_v61_apply, val_main_v43_apply, val_main_v42_apply, val_main_v41_apply, val_main_v40_apply]
  simp only [Ideal.addf_def, Ideal.mulf_def]
  have e1 : idx_main_v62 i k = ix2 (i 0 : Fin 16384) k := funext fun a => by
    match a with
    | ⟨0, _⟩ => rfl
    | ⟨1, _⟩ => rfl
  have e2 : idx_main_v40 (idx_main_v41 (idx_main_v62 i k)) = ix1 (i 0 : Fin 16384) := funext fun a => by
    match a with
    | ⟨0, _⟩ => rfl
  rw [e2, e1]
  rfl

end Cert.ReferenceIdeal.RefValue

end
-- ==== Proof.Bridge.lean ====
/-
  The two programs look the same rows up. With the guards gone, each of the kernel's six looked-up arrays is, as a
  term, the reference's: the same wrap of the negative indices, the same column of start indices, the same lookup.
  (The history sum is the same sum of the same looked-up rows.)
-/
import proofs.«428425_j80925773791743_4_alg».proof.Proof.Gen.ReferenceIdeal.Read
import proofs.«428425_j80925773791743_4_alg».proof.Proof.KernelHost

noncomputable section

namespace Cert.Bridge

open Idealize.ShloMosaic
open Cert.KernelIdeal.HostIn Cert.ReferenceIdeal.Read

abbrev TX : Type := IVec ⟨2, ![16384, 2]⟩ 32

theorem pu_eq (x0 : TX) (x2 : FVec Ideal ⟨2, ![100000, 64]⟩ .f32) :
    val_main_v10 (F := Ideal) x0 x2 = rowsP (F := Ideal) x2 (users x0) := rfl

theorem qi_eq (x0 : TX) (x3 : FVec Ideal ⟨2, ![20000, 64]⟩ .f32) :
    val_main_v17 (F := Ideal) x0 x3 = rowsQ (F := Ideal) x3 (items x0) := rfl

theorem ys_eq (x0 : TX) (x1 : IVec ⟨2, ![100000, 50]⟩ 32) (x6 : FVec Ideal ⟨2, ![20000, 64]⟩ .f32) :
    val_main_v32 (F := Ideal) x0 x1 x6 = sumH (F := Ideal) (rowsY x6 (histOf x1 (users x0))) := rfl

theorem bu_eq (x0 : TX) (x4 : FVec Ideal ⟨1, ![100000]⟩ .f32) :
    val_main_v50 (F := Ideal) x0 x4 = atUser (F := Ideal) x4 (users x0) := rfl

theorem bi_eq (x0 : TX) (x5 : FVec Ideal ⟨1, ![20000]⟩ .f32) :
    val_main_v59 (F := Ideal) x0 x5 = atItem (F := Ideal) x5 (items x0) := rfl

theorem inv_eq (x0 : TX) (x7 : FVec Ideal ⟨1, ![100000]⟩ .f32) :
    val_main_v39 (F := Ideal) x0 x7 = atUser (F := Ideal) x7 (users x0) := rfl

end Cert.Bridge

end
-- ==== Proof.PreFacts.lean ====
/-
  What the precondition says of the integer inputs. Its last three conjuncts are `all`s of range tests: every user id
  (column 0 of `x`) is in `[0, 100000)`, every item id (column 1 of `x`) in `[0, 20000)`, and every entry of the history
  table in `[0, 20000)` — the row ranges of the tables those words index. Each `all` is a reduction by `and` whose
  result is 1, so its operand is 1 at every index, and an `and` of two tests that is 1 has both tests 1.
-/
import proofs.«428425_j80925773791743_4_alg».proof.Pre_finite_inputs
import proofs.«428425_j80925773791743_4_alg».proof.Proof.Gen.Pre_finite_inputs
import proofs.«428425_j80925773791743_4_alg».proof.Proof.TakeFacts

namespace Cert.PreFacts

open Idealize.ShloMosaic Cert.Pre_finite_inputs Cert.Pre_finite_inputs.Gen Cert.TakeFacts

variable {F : FTy → Type} [FloatOps F]

instance : Subsingleton S_.Idx := ⟨fun a b => funext fun d => d.elim0⟩

/-- Column `k` of the id pairs `x`, as a vector. -/
def col0 (x : IVec S16384x2 32) : IVec S16384 32 :=
  shapeCast S16384 (extractStridedSlice S16384x1 ![0, 0] x slices_S16384x2_S16384x1_0_0) shapeCasts_S16384x1_S16384
def col1 (x : IVec S16384x2 32) : IVec S16384 32 :=
  shapeCast S16384 (extractStridedSlice S16384x1 ![0, 1] x slices_S16384x2_S16384x1_0_1) shapeCasts_S16384x1_S16384

/-- The precondition's three range conjuncts, index by index. -/
theorem ranges (x : IVec S16384x2 32) (hist : IVec S100000x50 32) (P : FVec F S100000x64 .f32) (Q : FVec F S20000x64 .f32)
    (bu : FVec F S100000 .f32) (bi : FVec F S20000 .f32) (Y : FVec F S20000x64 .f32) (inv : FVec F S100000 .f32)
    (mu : FVec F S_ .f32) (h : fn (F := F) x hist P Q bu bi Y inv mu = fun _ => 1#1) :
    (∀ j, InRange 100000 (col0 x j)) ∧ (∀ j, InRange 20000 (col1 x j)) ∧ (∀ i, InRange 20000 (hist i)) := by
  have e := congrFun h (fun d => d.elim0)
  dsimp only [fn, fn_part1, fn_part2, fn_part3] at e
  obtain ⟨e, e3⟩ := IntOp.andi_eq_one.1 e
  obtain ⟨e, e2⟩ := IntOp.andi_eq_one.1 e
  obtain ⟨-, e1⟩ := IntOp.andi_eq_one.1 e
  refine ⟨fun j => ?_, fun j => ?_, fun i => ?_⟩
  · exact IntOp.andi_eq_one.1 (Host.reduce_andi_all _ _ _ _ _ e1 j)
  · exact IntOp.andi_eq_one.1 (Host.reduce_andi_all _ _ _ _ _ e2 j)
  · exact IntOp.andi_eq_one.1 (Host.reduce_andi_all _ _ _ _ _ e3 i)

end Cert.PreFacts
-- ==== Proof.lean ====
/- A SVD++-style rating model: for batch row b with user u = x[b, 0] and item i = x[b, 1],

      pred[b] = mu + bu[u] + bi[i] + Σ_f (P[u, f] + inv_sqrt[u] · Σ_h Y[hist[u, h], f]) · Q[i, f].

   The kernel does every table lookup on the host, with a fill value outside the table's row range, and leaves to the
   pipelined region (8 blocks of 2048 rows) only the scaled combine, the 64-lane dot product and the bias add; the
   reference indexes the tables directly. The precondition keeps every user id, item id and history entry inside the
   row range of the tables it indexes; there each guarded lookup is the plain one, and the two programs look the same
   rows up, term for term. What is left differs only in the order of the four outer additions (the kernel adds mu last,
   the reference first, and starts its factor sum from zero), which on the extended reals is no difference: addition
   there is commutative and associative, so no finiteness is used. The frames are the generated ones (the reference's
   is its generated run with the result dropped), and the ideal pass rewrote nothing, so `preserves` is trivial. -/
import proofs.«428425_j80925773791743_4_alg».proof.Defs
import proofs.«428425_j80925773791743_4_alg».proof.Proof.Gen.Kernel
import proofs.«428425_j80925773791743_4_alg».proof.Proof.Gen.Kernel.Skeleton
import proofs.«428425_j80925773791743_4_alg».proof.Proof.Gen.Kernel.Launch
import proofs.«428425_j80925773791743_4_alg».proof.Proof.Gen.Kernel.Points
import proofs.«428425_j80925773791743_4_alg».proof.Proof.Gen.Kernel.Frame
import proofs.«428425_j80925773791743_4_alg».proof.Proof.Gen.KernelIdeal
import proofs.«428425_j80925773791743_4_alg».proof.Proof.Gen.KernelIdeal.Skeleton
import proofs.«428425_j80925773791743_4_alg».proof.Proof.Gen.KernelIdeal.Launch
import proofs.«428425_j80925773791743_4_alg».proof.Proof.Gen.KernelIdeal.Points
import proofs.«428425_j80925773791743_4_alg».proof.Proof.Gen.KernelIdeal.Frame
import proofs.«428425_j80925773791743_4_alg».proof.Proof.Gen.ReferenceIdeal
import proofs.«428425_j80925773791743_4_alg».proof.Proof.Gen.ReferenceIdeal.Run
import proofs.«428425_j80925773791743_4_alg».proof.Proof.Gen.ReferenceIdeal.Read
import proofs.«428425_j80925773791743_4_alg».proof.Proof.Gen.Pre_finite_inputs
import Idealize.ShloMosaic.Adequacy
import Idealize.ShloMosaic.Init

import proofs.«428425_j80925773791743_4_alg».proof.Proof.KernelRun
import proofs.«428425_j80925773791743_4_alg».proof.Proof.RefValue
import proofs.«428425_j80925773791743_4_alg».proof.Proof.Bridge
import proofs.«428425_j80925773791743_4_alg».proof.Proof.PreFacts

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end at the specification's prediction over the same looked-up rows: the kernel's by its run read block by
    block, the reference's by its run read operation by operation, the arguments agreeing. -/
theorem algebraic : Cert.algebraic_KernelIdeal_ReferenceIdeal := by
  intro m ρ m' ρ' hpre hagree
  have hr := fun c => Cert.PreFacts.ranges (F := Ideal) _ _ _ _ _ _ _ _ _ (hpre c)
  refine ⟨fun c => Cert.KernelIdeal.Result.predOf m c,
    Cert.KernelIdeal.Run.run m ρ (fun c => (hr c).1) (fun c => (hr c).2.1) (fun c => (hr c).2.2), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v63_eq, Cert.ReferenceIdeal.RefValue.ref_eq,
    (hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2,
    Cert.Bridge.pu_eq, Cert.Bridge.qi_eq, Cert.Bridge.ys_eq, Cert.Bridge.bu_eq, Cert.Bridge.bi_eq, Cert.Bridge.inv_eq]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
